-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x64 : Shape := ⟨2, ![800000, 64]⟩
abbrev S320x1 : Shape := ⟨2, ![320, 1]⟩
abbrev S1 : Shape := ⟨1, ![1]⟩
abbrev S192x128 : Shape := ⟨2, ![192, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S320x1 : S_.BroadcastsInDim S320x1 (![] : Fin 0 → Fin S320x1.rank)
  reducesTo_S320x1_S_d0_1 : S320x1.ReducesTo [0, 1] S_
  bcast_S_S1 : S_.BroadcastsInDim S1 (![] : Fin 0 → Fin S1.rank)
  reducesTo_S1_S_d0 : S1.ReducesTo [0] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_
  bcast_S_S2x800000 : S_.BroadcastsInDim S2x800000 (![] : Fin 0 → Fin S2x800000.rank)
  reducesTo_S2x800000_S_d0_1 : S2x800000.ReducesTo [0, 1] S_

variable [Facts]

def fn_part2 {F : FTy → Type} [FloatOps F] (main_arg1 : IVec S2x800000 32) (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_c_14 : IVec S_ 32 := constantI S_ 32 0#32
  let main_v39 : IVec S2x800000 32 := broadcastInDim S2x800000 ![] bcast_S_S2x800000 main_c_14
  let main_v40 : IVec S2x800000 1 := cmpi .sge main_arg1 main_v39
  let main_c_15 : IVec S_ 32 := constantI S_ 32 50000#32
  let main_v41 : IVec S2x800000 32 := broadcastInDim S2x800000 ![] bcast_S_S2x800000 main_c_15
  let main_v42 : IVec S2x800000 1 := cmpi .slt main_arg1 main_v41
  let main_v43 : IVec S2x800000 1 := andi main_v40 main_v42
  let main_c_16 : IVec S_ 1 := constantI S_ 1 1#1
  let main_v44 : IVec S_ 1 := (fun x v => Host.reduce IntOp.andi x v reducesTo_S2x800000_S_d0_1 h_S_) main_v43 main_c_16
  let main_v45 : IVec S_ 1 := andi main_v38 main_v44
  main_v45

def fn_part1 {F : FTy → Type} [FloatOps F] (main_arg1 : IVec S2x800000 32) (main_arg5 : FVec F S192x128 .f32) (main_arg6 : FVec F S128 .f32) (main_arg7 : FVec F S128 .f32) (main_arg8 : FVec F S128 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S192x128 .f32 := Host.absf main_arg5
  let main_cst_6 : FVec F S_ .f32 := constant S_ .f32 0x7F800000#32
  let main_v20 : FVec F S192x128 .f32 := broadcastInDim S192x128 ![] bcast_S_S192x128 main_cst_6
  let main_v21 : IVec S192x128 1 := cmpf .olt main_v19 main_v20
  let main_c_7 : IVec S_ 1 := constantI S_ 1 1#1
  let main_v22 : IVec S_ 1 := (fun x v => Host.reduce IntOp.andi x v reducesTo_S192x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_v33

def fn {F : FTy → Type} [FloatOps F] (main_arg0 : FVec F S50000x128 .f32) (main_arg1 : IVec S2x800000 32) (main_arg2 : FVec F S800000x64 .f32) (main_arg3 : FVec F S320x1 .f32) (main_arg4 : FVec F S1 .f32) (main_arg5 : FVec F S192x128 .f32) (main_arg6 : FVec F S128 .f32) (main_arg7 : FVec F S128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x64 .f32 := Host.absf main_arg2
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S320x1 .f32 := Host.absf main_arg3
  let main_cst_2 : FVec F S_ .f32 := constant S_ .f32 0x7F800000#32
  let main_v10 : FVec F S320x1 .f32 := broadcastInDim S320x1 ![] bcast_S_S320x1 main_cst_2
  let main_v11 : IVec S320x1 1 := cmpf .olt main_v9 main_v10
  let main_c_3 : IVec S_ 1 := constantI S_ 1 1#1
  let main_v12 : IVec S_ 1 := (fun x v => Host.reduce IntOp.andi x v reducesTo_S320x1_S_d0_1 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg1 main_arg5 main_arg6 main_arg7 main_arg8 main_v13 main_v16
-- ==== Kernel.lean ====
abbrev S50000x128 : Shape := ⟨2, ![50000, 128]⟩
abbrev S2x800000 : Shape := ⟨2, ![2, 800000]⟩
abbrev S800000x64 : Shape := ⟨2, ![800000, 64]⟩
abbrev S320x1 : Shape := ⟨2, ![320, 1]⟩
abbrev S1 : Shape := ⟨1, ![1]⟩
abbrev S192x128 : Shape := ⟨2, ![192, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x1 : Shape := ⟨2, ![1, 1]⟩
abbrev S800000x128 : Shape := ⟨2, ![800000, 128]⟩
abbrev S10000x128 : Shape := ⟨2, ![10000, 128]⟩
abbrev S10000x64 : Shape := ⟨2, ![10000, 64]⟩
abbrev S10000x320 : Shape := ⟨2, ![10000, 320]⟩
abbrev S10000x1 : Shape := ⟨2, ![10000, 1]⟩
abbrev S10000x192 : Shape := ⟨2, ![10000, 192]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩

abbrev nBuf : Space → Nat
  | .hbm => 65
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x64, .f32⟩
  | .hbm, ⟨3, _⟩ => ⟨S320x1, .f32⟩
  | .hbm, ⟨4, _⟩ => ⟨S1, .f32⟩
  | .hbm, ⟨5, _⟩ => ⟨S192x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S1, .i32⟩
  | .hbm, ⟨22, _⟩ => ⟨S_, .i32⟩
  | .hbm, ⟨23, _⟩ => ⟨S800000x1, .i32⟩
  | .hbm, ⟨24, _⟩ => ⟨S800000x1, .i1⟩
  | .hbm, ⟨25, _⟩ => ⟨S1x1, .i32⟩
  | .hbm, ⟨26, _⟩ => ⟨S800000x1, .i32⟩
  | .hbm, ⟨27, _⟩ => ⟨S800000x1, .i1⟩
  | .hbm, ⟨28, _⟩ => ⟨S800000x1, .i1⟩
  | .hbm, ⟨29, _⟩ => ⟨S_, .i1⟩
  | .hbm, ⟨30, _⟩ => ⟨S800000, .i1⟩
  | .hbm, ⟨31, _⟩ => ⟨S800000x128, .f32⟩
  | .hbm, ⟨32, _⟩ => ⟨S800000x128, .i1⟩
  | .hbm, ⟨33, _⟩ => ⟨S_, .f32⟩
  | .hbm, ⟨34, _⟩ => ⟨S800000x128, .f32⟩
  | .hbm, ⟨35, _⟩ => ⟨S800000x128, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S1, .i32⟩
  | .hbm, ⟨45, _⟩ => ⟨S_, .i32⟩
  | .hbm, ⟨46, _⟩ => ⟨S800000x1, .i32⟩
  | .hbm, ⟨47, _⟩ => ⟨S800000x1, .i1⟩
  | .hbm, ⟨48, _⟩ => ⟨S1x1, .i32⟩
  | .hbm, ⟨49, _⟩ => ⟨S800000x1, .i32⟩
  | .hbm, ⟨50, _⟩ => ⟨S800000x1, .i1⟩
  | .hbm, ⟨51, _⟩ => ⟨S800000x1, .i1⟩
  | .hbm, ⟨52, _⟩ => ⟨S_, .i1⟩
  | .hbm, ⟨53, _⟩ => ⟨S800000, .i1⟩
  | .hbm, ⟨54, _⟩ => ⟨S800000x128, .f32⟩
  | .hbm, ⟨55, _⟩ => ⟨S800000x128, .i1⟩
  | .hbm, ⟨56, _⟩ => ⟨S_, .f32⟩
  | .hbm, ⟨57, _⟩ => ⟨S800000x128, .f32⟩
  | .hbm, ⟨58, _⟩ => ⟨S800000x128, .f32⟩
  | .hbm, ⟨59, _⟩ => ⟨S800000x128, .f32⟩
  | .hbm, ⟨60, _⟩ => ⟨S_, .f32⟩
  | .hbm, ⟨61, _⟩ => ⟨S50000x128, .f32⟩
  | .hbm, ⟨62, _⟩ => ⟨S800000x1, .i32⟩
  | .hbm, ⟨63, _⟩ => ⟨S50000x128, .f32⟩
  | .hbm, ⟨64, _⟩ => ⟨S50000x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S10000x64, .f32⟩
  | .local _ .vmem, ⟨5, _⟩ => ⟨S10000x64, .f32⟩
  | .local _ .vmem, ⟨6, _⟩ => ⟨S320x1, .f32⟩
  | .local _ .vmem, ⟨7, _⟩ => ⟨S1, .f32⟩
  | .local _ .vmem, ⟨8, _⟩ => ⟨S192x128, .f32⟩
  | .local _ .vmem, ⟨9, _⟩ => ⟨S128, .f32⟩
  | .local _ .vmem, ⟨10, _⟩ => ⟨S10000x128, .f32⟩
  | .local _ .vmem, ⟨11, _⟩ => ⟨S10000x128, .f32⟩
  | .local _ .vmem, ⟨12, _⟩ => ⟨S5000x128, .f32⟩
  | .local _ .vmem, ⟨13, _⟩ => ⟨S5000x128, .f32⟩
  | .local _ .vmem, ⟨14, _⟩ => ⟨S128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v4 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v5 : Ref sig .tc := ⟨.hbm, 58, rfl⟩
abbrev main_v6 : Ref sig .tc := ⟨.hbm, 59, rfl⟩
abbrev main_cst : Ref sig .tc := ⟨.hbm, 60, rfl⟩
abbrev main_v7 : Ref sig .tc := ⟨.hbm, 61, rfl⟩
abbrev main_v8 : Ref sig .tc := ⟨.hbm, 62, rfl⟩
abbrev main_v9 : Ref sig .tc := ⟨.hbm, 63, rfl⟩
abbrev main_v10 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S320x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S192x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x64_S10000x64_0_0 : ∀ a, (![0, 0] : Fin 2 → Nat) a + S10000x64.size a ≤ S10000x64.size a
  h_S10000x64 : 0 < S10000x64.numel
  concatenates_S10000x128_S10000x128_S10000x64_S10000x320_d1 : Shape.Concatenates [S10000x128, S10000x128, S10000x64] S10000x320 1
  inb_S320x1_S320x1_0_0 : ∀ a, (![0, 0] : Fin 2 → Nat) a + S320x1.size a ≤ S320x1.size a
  h_S320x1 : 0 < S320x1.numel
  inb_S1_S1_0 : ∀ a, (![0] : Fin 1 → Nat) a + S1.size a ≤ S1.size a
  h_S1 : 0 < S1.numel
  shapeCasts_S1_S1x1 : S1.ShapeCasts S1x1
  broadcasts_S1x1_S10000x1 : S1x1.Broadcasts S10000x1
  concatenates_S10000x128_S10000x64_S10000x192_d1 : Shape.Concatenates [S10000x128, S10000x64] S10000x192 1
  inb_S192x128_S192x128_0_0 : ∀ a, (![0, 0] : Fin 2 → Nat) a + S192x128.size a ≤ S192x128.size a
  h_S192x128 : 0 < S192x128.numel
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  broadcasts_S10000x1_S10000x128 : S10000x1.Broadcasts S10000x128
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  reduces_S5000x128_S5000 : S5000x128.Reduces [1] S5000
  shapeCasts_S5000_S5000x1 : S5000.ShapeCasts S5000x1
  broadcasts_S5000x1_S5000x128 : S5000x1.Broadcasts S5000x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  dot_S10000x320_S320x1_S10000x1_1_0_0_1_n_n_wf : DotDims.WF S10000x320 S320x1 S10000x1 [1] [0] [0] [1] [] []
  dot_S10000x192_S192x128_S10000x128_1_0_0_1_n_n_wf : DotDims.WF S10000x192 S192x128 S10000x128 [1] [0] [0] [1] [] []
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S800000x128.size a
  hwx0_0 : ∀ i : grid0.Coords, EltTy.bits .f32 = 32 ∨ (Rect.block (s := S800000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S800000x128.size a
  hwx0_1 : ∀ i : grid0.Coords, EltTy.bits .f32 = 32 ∨ (Rect.block (s := S800000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S800000x64.size a
  hwx0_2 : ∀ i : grid0.Coords, EltTy.bits .f32 = 32 ∨ (Rect.block (s := S800000x64) S10000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S320x1.size a ≤ S320x1.size a
  hwx0_3 : ∀ i : grid0.Coords, EltTy.bits .f32 = 32 ∨ (Rect.block (s := S320x1) S320x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S192x128.size a ≤ S192x128.size a
  hwx0_5 : ∀ i : grid0.Coords, EltTy.bits .f32 = 32 ∨ (Rect.block (s := S192x128) S192x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x128.size a ≤ S800000x128.size a
  hwx0_7 : ∀ i : grid0.Coords, EltTy.bits .f32 = 32 ∨ (Rect.block (s := S800000x128) S10000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S10000x320_S320x1_S10000x1_1_0_0_1_n_n : DotDims S10000x320 S320x1 S10000x1 where
  lhsContracting := [1]
  rhsContracting := [0]
  lhsNonContracting := [0]
  rhsNonContracting := [1]
  lhsBatch := []
  rhsBatch := []
  wf := dot_S10000x320_S320x1_S10000x1_1_0_0_1_n_n_wf
def dot_S10000x192_S192x128_S10000x128_1_0_0_1_n_n : DotDims S10000x192 S192x128 S10000x128 where
  lhsContracting := [1]
  rhsContracting := [0]
  lhsNonContracting := [0]
  rhsNonContracting := [1]
  lhsBatch := []
  rhsBatch := []
  wf := dot_S10000x192_S192x128_S10000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_v4) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S10000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S320x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S192x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S10000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v9) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x64 : Shape := ⟨2, ![800000, 64]⟩
abbrev S320x1 : Shape := ⟨2, ![320, 1]⟩
abbrev S1 : Shape := ⟨1, ![1]⟩
abbrev S192x128 : Shape := ⟨2, ![192, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x320 : Shape := ⟨2, ![800000, 320]⟩
abbrev S1x1 : Shape := ⟨2, ![1, 1]⟩
abbrev S800000x192 : Shape := ⟨2, ![800000, 192]⟩
abbrev S1x128 : Shape := ⟨2, ![1, 128]⟩
abbrev S50000 : Shape := ⟨1, ![50000]⟩
abbrev S50000x1 : Shape := ⟨2, ![50000, 1]⟩

abbrev nBuf : Space → Nat
  | .hbm => 90
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x64, .f32⟩
  | .hbm, ⟨3, _⟩ => ⟨S320x1, .f32⟩
  | .hbm, ⟨4, _⟩ => ⟨S1, .f32⟩
  | .hbm, ⟨5, _⟩ => ⟨S192x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .f32⟩
  | .hbm, ⟨31, _⟩ => ⟨S800000x320, .f32⟩
  | .hbm, ⟨32, _⟩ => ⟨S800000x1, .f32⟩
  | .hbm, ⟨33, _⟩ => ⟨S1x1, .f32⟩
  | .hbm, ⟨34, _⟩ => ⟨S800000x1, .f32⟩
  | .hbm, ⟨35, _⟩ => ⟨S800000x1, .f32⟩
  | .hbm, ⟨36, _⟩ => ⟨S800000x1, .f32⟩
  | .hbm, ⟨37, _⟩ => ⟨S800000x1, .f32⟩
  | .hbm, ⟨38, _⟩ => ⟨S_, .f32⟩
  | .hbm, ⟨39, _⟩ => ⟨S800000x1, .f32⟩
  | .hbm, ⟨40, _⟩ => ⟨S800000x1, .f32⟩
  | .hbm, ⟨41, _⟩ => ⟨S_, .f32⟩
  | .hbm, ⟨42, _⟩ => ⟨S800000x1, .f32⟩
  | .hbm, ⟨43, _⟩ => ⟨S800000x1, .f32⟩
  | .hbm, ⟨44, _⟩ => ⟨S800000x192, .f32⟩
  | .hbm, ⟨45, _⟩ => ⟨S800000x128, .f32⟩
  | .hbm, ⟨46, _⟩ => ⟨S1x128, .f32⟩
  | .hbm, ⟨47, _⟩ => ⟨S800000x128, .f32⟩
  | .hbm, ⟨48, _⟩ => ⟨S800000x128, .f32⟩
  | .hbm, ⟨49, _⟩ => ⟨S_, .f32⟩
  | .hbm, ⟨50, _⟩ => ⟨S800000x128, .f32⟩
  | .hbm, ⟨51, _⟩ => ⟨S800000x128, .f32⟩
  | .hbm, ⟨52, _⟩ => ⟨S800000x128, .f32⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S_, .f32⟩
  | .hbm, ⟨59, _⟩ => ⟨S50000, .f32⟩
  | .hbm, ⟨60, _⟩ => ⟨S50000x1, .f32⟩
  | .hbm, ⟨61, _⟩ => ⟨S_, .f32⟩
  | .hbm, ⟨62, _⟩ => ⟨S50000x1, .f32⟩
  | .hbm, ⟨63, _⟩ => ⟨S50000x1, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S_, .f32⟩
  | .hbm, ⟨68, _⟩ => ⟨S50000, .f32⟩
  | .hbm, ⟨69, _⟩ => ⟨S50000x1, .f32⟩
  | .hbm, ⟨70, _⟩ => ⟨S_, .f32⟩
  | .hbm, ⟨71, _⟩ => ⟨S50000x1, .f32⟩
  | .hbm, ⟨72, _⟩ => ⟨S50000x1, .f32⟩
  | .hbm, ⟨73, _⟩ => ⟨S50000x128, .f32⟩
  | .hbm, ⟨74, _⟩ => ⟨S50000x128, .f32⟩
  | .hbm, ⟨75, _⟩ => ⟨S_, .f32⟩
  | .hbm, ⟨76, _⟩ => ⟨S50000x1, .f32⟩
  | .hbm, ⟨77, _⟩ => ⟨S50000x1, .f32⟩
  | .hbm, ⟨78, _⟩ => ⟨S50000x1, .f32⟩
  | .hbm, ⟨79, _⟩ => ⟨S50000x128, .f32⟩
  | .hbm, ⟨80, _⟩ => ⟨S50000x128, .f32⟩
  | .hbm, ⟨81, _⟩ => ⟨S1x128, .f32⟩
  | .hbm, ⟨82, _⟩ => ⟨S50000x128, .f32⟩
  | .hbm, ⟨83, _⟩ => ⟨S50000x128, .f32⟩
  | .hbm, ⟨84, _⟩ => ⟨S1x128, .f32⟩
  | .hbm, ⟨85, _⟩ => ⟨S50000x128, .f32⟩
  | .hbm, ⟨86, _⟩ => ⟨S50000x128, .f32⟩
  | .hbm, ⟨87, _⟩ => ⟨S_, .f32⟩
  | .hbm, ⟨88, _⟩ => ⟨S50000x128, .f32⟩
  | .hbm, ⟨89, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_call0_cst : Ref sig .tc := ⟨.hbm, 49, rfl⟩
abbrev main_call0_v0 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_4 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_5 : Ref sig .tc := ⟨.hbm, 58, rfl⟩
abbrev main_v40 : Ref sig .tc := ⟨.hbm, 59, rfl⟩
abbrev main_v41 : Ref sig .tc := ⟨.hbm, 60, rfl⟩
abbrev main_cst_6 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_7 : Ref sig .tc := ⟨.hbm, 67, rfl⟩
abbrev main_v47 : Ref sig .tc := ⟨.hbm, 68, rfl⟩
abbrev main_v48 : Ref sig .tc := ⟨.hbm, 69, rfl⟩
abbrev main_cst_8 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_call1_cst : Ref sig .tc := ⟨.hbm, 87, rfl⟩
abbrev main_call1_v0 : Ref sig .tc := ⟨.hbm, 88, rfl⟩
abbrev main_v64 : Ref sig .tc := ⟨.hbm, 89, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x64_S800000x320_d1 : Shape.Concatenates [S800000x128, S800000x128, S800000x64] S800000x320 1
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  concatenates_S800000x128_S800000x64_S800000x192_d1 : Shape.Concatenates [S800000x128, S800000x64] S800000x192 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x320_S320x1_S800000x1_1_0_0_1_n_n_wf : DotDims.WF S800000x320 S320x1 S800000x1 [1] [0] [0] [1] [] []
  dot_S800000x192_S192x128_S800000x128_1_0_0_1_n_n_wf : DotDims.WF S800000x192 S192x128 S800000x128 [1] [0] [0] [1] [] []
  scatter_S50000x128_S800000x1_S800000x128_1_0_0_1_wf : ScatterDims.WF S50000x128 S800000x1 S800000x128 [1] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x320_S320x1_S800000x1_1_0_0_1_n_n : DotDims S800000x320 S320x1 S800000x1 where
  lhsContracting := [1]
  rhsContracting := [0]
  lhsNonContracting := [0]
  rhsNonContracting := [1]
  lhsBatch := []
  rhsBatch := []
  wf := dot_S800000x320_S320x1_S800000x1_1_0_0_1_n_n_wf
def dot_S800000x192_S192x128_S800000x128_1_0_0_1_n_n : DotDims S800000x192 S192x128 S800000x128 where
  lhsContracting := [1]
  rhsContracting := [0]
  lhsNonContracting := [0]
  rhsNonContracting := [1]
  lhsBatch := []
  rhsBatch := []
  wf := dot_S800000x192_S192x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.Spec.lean ====
/-
  The two row functions both programs compute, over the extended reals.

  A message row: for one edge, with `hs` / `hd` the source and destination node rows and `ef` the edge's
  features, the gate is the logistic of the affine form `⟨hs ‖ hd ‖ ef, aw⟩ + ab` and the message is the gate
  times the rectified affine map `(hs ‖ ef) · mw + mb`.  A normalised row: a node's aggregated row minus its
  mean, scaled by the reciprocal square root of its variance plus a small constant, then by `γ`, shifted by
  `β` and rectified.  Float constants stay the printed words; only a sum's initial zero is read.
-/
import Idealize.ShloMosaic.PureOps.Ideal
import Idealize.ShloMosaic.PureOps.Ideal.Laws
import Idealize.ShloMosaic.Lib.ValueIdx

noncomputable section

namespace Cert.Spec

open Idealize.ShloMosaic

/-- Three rows laid end to end: 128 + 128 + 64 entries. -/
def cat3 (a b : Fin 128 → EReal) (c : Fin 64 → EReal) (k : Fin 320) : EReal :=
  if h : k.val < 128 then a ⟨k.val, h⟩
  else if h2 : k.val < 256 then b ⟨k.val - 128, by omega⟩
  else c ⟨k.val - 256, by have := k.isLt; omega⟩

/-- Two rows laid end to end: 128 + 64 entries. -/
def cat2 (a : Fin 128 → EReal) (c : Fin 64 → EReal) (k : Fin 192) : EReal :=
  if h : k.val < 128 then a ⟨k.val, h⟩ else c ⟨k.val - 128, by have := k.isLt; omega⟩

/-- The edge's gate: the logistic of `⟨hs ‖ hd ‖ ef, aw⟩ + ab`. -/
def gate (hs hd : Fin 128 → EReal) (ef : Fin 64 → EReal) (aw : Fin 320 → EReal) (ab : EReal) : EReal :=
  Ideal.logistic ((∑ k : Fin 320, cat3 hs hd ef k * aw k) + ab)

/-- Entry `q` of the edge's message: the gate times the rectified `((hs ‖ ef) · mw + mb) q`. -/
def msgRow (hs hd : Fin 128 → EReal) (ef : Fin 64 → EReal) (aw : Fin 320 → EReal) (ab : EReal)
    (mw : Fin 192 → Fin 128 → EReal) (mb : Fin 128 → EReal) (q : Fin 128) : EReal :=
  gate hs hd ef aw ab * max ((∑ k : Fin 192, cat2 hs ef k * mw k q) + mb q) (Ideal.ofBits .f32 0x00000000#32)

/-- A row's mean: its sum over 128. -/
def rowMean (x : Fin 128 → EReal) : EReal := Ideal.div (∑ k : Fin 128, x k) (Ideal.ofBits .f32 0x43000000#32)

/-- A row's variance: the mean of the squared deviations from its mean. -/
def rowVar (x : Fin 128 → EReal) : EReal :=
  Ideal.div (∑ k : Fin 128, (x k - rowMean x) * (x k - rowMean x)) (Ideal.ofBits .f32 0x43000000#32)

/-- Entry `q` of the normalised, scaled, shifted and rectified row. -/
def lnRow (x γ β : Fin 128 → EReal) (q : Fin 128) : EReal :=
  max ((x q - rowMean x) * Ideal.rsqrt (rowVar x + Ideal.ofBits .f32 0x3727C5AC#32) * γ q + β q)
    (Ideal.ofBits .f32 0x00000000#32)

/-- The message array: row `e` is `msgRow` of row `e` of the two gathered node arrays and of the edge features. -/
def msgArr (hs hd : (⟨2, ![800000, 128]⟩ : Shape).Idx → EReal) (ef : (⟨2, ![800000, 64]⟩ : Shape).Idx → EReal)
    (aw : (⟨2, ![320, 1]⟩ : Shape).Idx → EReal) (ab : (⟨1, ![1]⟩ : Shape).Idx → EReal)
    (mw : (⟨2, ![192, 128]⟩ : Shape).Idx → EReal) (mb : (⟨1, ![128]⟩ : Shape).Idx → EReal) :
    (⟨2, ![800000, 128]⟩ : Shape).Idx → EReal := fun i =>
  msgRow (fun k => hs (ValueIdx.ix2 (⟨(i 0).val, ValueIdx.idx2_lt0 i⟩ : Fin 800000) k))
    (fun k => hd (ValueIdx.ix2 (⟨(i 0).val, ValueIdx.idx2_lt0 i⟩ : Fin 800000) k))
    (fun k => ef (ValueIdx.ix2 (⟨(i 0).val, ValueIdx.idx2_lt0 i⟩ : Fin 800000) k))
    (fun k => aw (ValueIdx.ix2 k (0 : Fin 1))) (ab (ValueIdx.ix1 (0 : Fin 1)))
    (fun k j => mw (ValueIdx.ix2 k j)) (fun j => mb (ValueIdx.ix1 j)) ⟨(i 1).val, ValueIdx.idx2_lt1 i⟩

/-- The normalised array: row `r` is `lnRow` of row `r` of the aggregated array. -/
def lnArr (x : (⟨2, ![50000, 128]⟩ : Shape).Idx → EReal) (γ β : (⟨1, ![128]⟩ : Shape).Idx → EReal) :
    (⟨2, ![50000, 128]⟩ : Shape).Idx → EReal := fun i =>
  lnRow (fun k => x (ValueIdx.ix2 (⟨(i 0).val, ValueIdx.idx2_lt0 i⟩ : Fin 50000) k))
    (fun k => γ (ValueIdx.ix1 k)) (fun k => β (ValueIdx.ix1 k)) ⟨(i 1).val, ValueIdx.idx2_lt1 i⟩

end Cert.Spec

end
-- ==== Proof.KernMsg.lean ====
/-
  The message kernel's payload at an index: entry (p, q) of the body's result on a block of 10000 edges is
  `msgRow` of row p of the three edge blocks and of the weights.
-/
import proofs.«416091_j5514738008949_1_alg».proof.Proof.Gen.KernelIdeal.Skeleton
import proofs.«416091_j5514738008949_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Msg

open Cert.KernelIdeal Cert.KernelIdeal.Gen Idealize.ShloMosaic Idealize.ShloMosaic.ValueIdx

theorem lhs_gate_0 (i : S10000x1.Idx) (q : Cert.KernelIdeal.dot_S10000x320_S320x1_S10000x1_1_0_0_1_n_n.contr.Idx) :
    (Cert.KernelIdeal.dot_S10000x320_S320x1_S10000x1_1_0_0_1_n_n.lhsIdx i q 0).val = (i 0).val := by
  unfold DotDims.lhsIdx
  rw [dif_neg (show ¬(0 : Fin S10000x320.rank) ∈ Cert.KernelIdeal.dot_S10000x320_S320x1_S10000x1_1_0_0_1_n_n.lhsBatch by decide), dif_pos (show (0 : Fin S10000x320.rank) ∈ Cert.KernelIdeal.dot_S10000x320_S320x1_S10000x1_1_0_0_1_n_n.lhsNonContracting by decide)]
  rfl
theorem lhs_gate_1 (i : S10000x1.Idx) (q : Cert.KernelIdeal.dot_S10000x320_S320x1_S10000x1_1_0_0_1_n_n.contr.Idx) :
    (Cert.KernelIdeal.dot_S10000x320_S320x1_S10000x1_1_0_0_1_n_n.lhsIdx i q 1).val = (q ⟨0, by decide⟩).val :=
  Cert.KernelIdeal.dot_S10000x320_S320x1_S10000x1_1_0_0_1_n_n.lhsIdx_val_of_single rfl i q
theorem rhs_gate_0 (i : S10000x1.Idx) (q : Cert.KernelIdeal.dot_S10000x320_S320x1_S10000x1_1_0_0_1_n_n.contr.Idx) :
    (Cert.KernelIdeal.dot_S10000x320_S320x1_S10000x1_1_0_0_1_n_n.rhsIdx i q 0).val = (q ⟨0, by decide⟩).val :=
  Cert.KernelIdeal.dot_S10000x320_S320x1_S10000x1_1_0_0_1_n_n.rhsIdx_val_of_single rfl i q
theorem rhs_gate_1 (i : S10000x1.Idx) (q : Cert.KernelIdeal.dot_S10000x320_S320x1_S10000x1_1_0_0_1_n_n.contr.Idx) :
    (Cert.KernelIdeal.dot_S10000x320_S320x1_S10000x1_1_0_0_1_n_n.rhsIdx i q 1).val = (i 1).val := by
  unfold DotDims.rhsIdx
  rw [dif_neg (show ¬(1 : Fin S320x1.rank) ∈ Cert.KernelIdeal.dot_S10000x320_S320x1_S10000x1_1_0_0_1_n_n.rhsBatch by decide), dif_pos (show (1 : Fin S320x1.rank) ∈ Cert.KernelIdeal.dot_S10000x320_S320x1_S10000x1_1_0_0_1_n_n.rhsNonContracting by decide)]
  rfl

/-- The product into a zero accumulator at an entry: the sum over the contracted axis. -/
theorem gate_matmul_apply (x : FVec Ideal S10000x320 .f32) (w : FVec Ideal S320x1 .f32) (p : Fin 10000) (z : Fin 1) :
    matmul Cert.KernelIdeal.dot_S10000x320_S320x1_S10000x1_1_0_0_1_n_n none x w (constant (F := Ideal) S10000x1 .f32 0x00000000#32) (ix2 p z)
      = ∑ k : Fin 320, x (ix2 p k) * w (ix2 k z) := by
  simp only [matmul]
  rw [Ideal.matmul_constant_zero_apply, ← Equiv.sum_comp (ValueIdx.contrEquiv1 Cert.KernelIdeal.dot_S10000x320_S320x1_S10000x1_1_0_0_1_n_n 320 rfl rfl).symm]
  refine Finset.sum_congr rfl fun k _ => ?_
  have hk := ValueIdx.contrEquiv1_symm_val Cert.KernelIdeal.dot_S10000x320_S320x1_S10000x1_1_0_0_1_n_n 320 rfl rfl k
  have el : Cert.KernelIdeal.dot_S10000x320_S320x1_S10000x1_1_0_0_1_n_n.lhsIdx (ix2 p z) ((ValueIdx.contrEquiv1 Cert.KernelIdeal.dot_S10000x320_S320x1_S10000x1_1_0_0_1_n_n 320 rfl rfl).symm k) = ix2 p k := funext fun a => Fin.ext (by
    match a with
    | ⟨0, _⟩ => exact lhs_gate_0 _ _
    | ⟨1, _⟩ => exact (lhs_gate_1 _ _).trans hk)
  have er : Cert.KernelIdeal.dot_S10000x320_S320x1_S10000x1_1_0_0_1_n_n.rhsIdx (ix2 p z) ((ValueIdx.contrEquiv1 Cert.KernelIdeal.dot_S10000x320_S320x1_S10000x1_1_0_0_1_n_n 320 rfl rfl).symm k) = ix2 k z := funext fun a => Fin.ext (by
    match a with
    | ⟨0, _⟩ => exact (rhs_gate_0 _ _).trans hk
    | ⟨1, _⟩ => exact rhs_gate_1 _ _)
  rw [el, er]

theorem lhs_aff_0 (i : S10000x128.Idx) (q : Cert.KernelIdeal.dot_S10000x192_S192x128_S10000x128_1_0_0_1_n_n.contr.Idx) :
    (Cert.KernelIdeal.dot_S10000x192_S192x128_S10000x128_1_0_0_1_n_n.lhsIdx i q 0).val = (i 0).val := by
  unfold DotDims.lhsIdx
  rw [dif_neg (show ¬(0 : Fin S10000x192.rank) ∈ Cert.KernelIdeal.dot_S10000x192_S192x128_S10000x128_1_0_0_1_n_n.lhsBatch by decide), dif_pos (show (0 : Fin S10000x192.rank) ∈ Cert.KernelIdeal.dot_S10000x192_S192x128_S10000x128_1_0_0_1_n_n.lhsNonContracting by decide)]
  rfl
theorem lhs_aff_1 (i : S10000x128.Idx) (q : Cert.KernelIdeal.dot_S10000x192_S192x128_S10000x128_1_0_0_1_n_n.contr.Idx) :
    (Cert.KernelIdeal.dot_S10000x192_S192x128_S10000x128_1_0_0_1_n_n.lhsIdx i q 1).val = (q ⟨0, by decide⟩).val :=
  Cert.KernelIdeal.dot_S10000x192_S192x128_S10000x128_1_0_0_1_n_n.lhsIdx_val_of_single rfl i q
theorem rhs_aff_0 (i : S10000x128.Idx) (q : Cert.KernelIdeal.dot_S10000x192_S192x128_S10000x128_1_0_0_1_n_n.contr.Idx) :
    (Cert.KernelIdeal.dot_S10000x192_S192x128_S10000x128_1_0_0_1_n_n.rhsIdx i q 0).val = (q ⟨0, by decide⟩).val :=
  Cert.KernelIdeal.dot_S10000x192_S192x128_S10000x128_1_0_0_1_n_n.rhsIdx_val_of_single rfl i q
theorem rhs_aff_1 (i : S10000x128.Idx) (q : Cert.KernelIdeal.dot_S10000x192_S192x128_S10000x128_1_0_0_1_n_n.contr.Idx) :
    (Cert.KernelIdeal.dot_S10000x192_S192x128_S10000x128_1_0_0_1_n_n.rhsIdx i q 1).val = (i 1).val := by
  unfold DotDims.rhsIdx
  rw [dif_neg (show ¬(1 : Fin S192x128.rank) ∈ Cert.KernelIdeal.dot_S10000x192_S192x128_S10000x128_1_0_0_1_n_n.rhsBatch by decide), dif_pos (show (1 : Fin S192x128.rank) ∈ Cert.KernelIdeal.dot_S10000x192_S192x128_S10000x128_1_0_0_1_n_n.rhsNonContracting by decide)]
  rfl

/-- The product into a zero accumulator at an entry: the sum over the contracted axis. -/
theorem aff_matmul_apply (x : FVec Ideal S10000x192 .f32) (w : FVec Ideal S192x128 .f32) (p : Fin 10000) (z : Fin 128) :
    matmul Cert.KernelIdeal.dot_S10000x192_S192x128_S10000x128_1_0_0_1_n_n none x w (constant (F := Ideal) S10000x128 .f32 0x00000000#32) (ix2 p z)
      = ∑ k : Fin 192, x (ix2 p k) * w (ix2 k z) := by
  simp only [matmul]
  rw [Ideal.matmul_constant_zero_apply, ← Equiv.sum_comp (ValueIdx.contrEquiv1 Cert.KernelIdeal.dot_S10000x192_S192x128_S10000x128_1_0_0_1_n_n 192 rfl rfl).symm]
  refine Finset.sum_congr rfl fun k _ => ?_
  have hk := ValueIdx.contrEquiv1_symm_val Cert.KernelIdeal.dot_S10000x192_S192x128_S10000x128_1_0_0_1_n_n 192 rfl rfl k
  have el : Cert.KernelIdeal.dot_S10000x192_S192x128_S10000x128_1_0_0_1_n_n.lhsIdx (ix2 p z) ((ValueIdx.contrEquiv1 Cert.KernelIdeal.dot_S10000x192_S192x128_S10000x128_1_0_0_1_n_n 192 rfl rfl).symm k) = ix2 p k := funext fun a => Fin.ext (by
    match a with
    | ⟨0, _⟩ => exact lhs_aff_0 _ _
    | ⟨1, _⟩ => exact (lhs_aff_1 _ _).trans hk)
  have er : Cert.KernelIdeal.dot_S10000x192_S192x128_S10000x128_1_0_0_1_n_n.rhsIdx (ix2 p z) ((ValueIdx.contrEquiv1 Cert.KernelIdeal.dot_S10000x192_S192x128_S10000x128_1_0_0_1_n_n 192 rfl rfl).symm k) = ix2 k z := funext fun a => Fin.ext (by
    match a with
    | ⟨0, _⟩ => exact (rhs_aff_0 _ _).trans hk
    | ⟨1, _⟩ => exact rhs_aff_1 _ _)
  rw [el, er]

/-! ### The two joins along the feature axis at an entry -/

/-- Row p of the three blocks laid end to end, at column k. -/
theorem concat3_apply (a b : FVec Ideal S10000x128 .f32) (c : FVec Ideal S10000x64 .f32) (p : Fin 10000) (k : Fin 320) :
    concatenate S10000x320 1 [⟨S10000x128, a⟩, ⟨S10000x128, b⟩, ⟨S10000x64, c⟩] concatenates_S10000x128_S10000x128_S10000x64_S10000x320_d1 (ix2 p k)
      = Cert.Spec.cat3 (fun k => a (ix2 p k)) (fun k => b (ix2 p k)) (fun k => c (ix2 p k)) k := by
  unfold Cert.Spec.cat3
  split_ifs with h1 h2
  · refine concatenate_apply_piece 1 _ _ (ix2 p k) 0 (by show 0 < 3; decide) S10000x128 a rfl rfl 0 rfl (ix2 p ⟨k.val, h1⟩) (fun d hd => ?_) ?_
    · match d with
      | ⟨0, _⟩ => rfl
      | ⟨1, _⟩ => exact absurd rfl hd
    · exact Nat.zero_add _
  · refine concatenate_apply_piece 1 _ _ (ix2 p k) 1 (by show 1 < 3; decide) S10000x128 b rfl rfl 128 rfl (ix2 p ⟨k.val - 128, by omega⟩) (fun d hd => ?_) ?_
    · match d with
      | ⟨0, _⟩ => rfl
      | ⟨1, _⟩ => exact absurd rfl hd
    · show 128 + (k.val - 128) = k.val
      omega
  · refine concatenate_apply_piece 1 _ _ (ix2 p k) 2 (by show 2 < 3; decide) S10000x64 c rfl rfl 256 rfl (ix2 p ⟨k.val - 256, by have := k.isLt; omega⟩) (fun d hd => ?_) ?_
    · match d with
      | ⟨0, _⟩ => rfl
      | ⟨1, _⟩ => exact absurd rfl hd
    · show 256 + (k.val - 256) = k.val
      omega

/-- Row p of the two blocks laid end to end, at column k. -/
theorem concat2_apply (a : FVec Ideal S10000x128 .f32) (c : FVec Ideal S10000x64 .f32) (p : Fin 10000) (k : Fin 192) :
    concatenate S10000x192 1 [⟨S10000x128, a⟩, ⟨S10000x64, c⟩] concatenates_S10000x128_S10000x64_S10000x192_d1 (ix2 p k)
      = Cert.Spec.cat2 (fun k => a (ix2 p k)) (fun k => c (ix2 p k)) k := by
  unfold Cert.Spec.cat2
  split_ifs with h1
  · refine concatenate_apply_piece 1 _ _ (ix2 p k) 0 (by show 0 < 2; decide) S10000x128 a rfl rfl 0 rfl (ix2 p ⟨k.val, h1⟩) (fun d hd => ?_) ?_
    · match d with
      | ⟨0, _⟩ => rfl
      | ⟨1, _⟩ => exact absurd rfl hd
    · exact Nat.zero_add _
  · refine concatenate_apply_piece 1 _ _ (ix2 p k) 1 (by show 1 < 2; decide) S10000x64 c rfl rfl 128 rfl (ix2 p ⟨k.val - 128, by have := k.isLt; omega⟩) (fun d hd => ?_) ?_
    · match d with
      | ⟨0, _⟩ => rfl
      | ⟨1, _⟩ => exact absurd rfl hd
    · show 128 + (k.val - 128) = k.val
      omega

/-! ### The three broadcasts at an entry -/

/-- The gate's bias, a one-entry vector viewed [1, 1] and spread down a column. -/
theorem bias1_apply (ab : FVec Ideal S1 .f32) (p : Fin 10000) (z : Fin 1) :
    broadcastTo S10000x1 (shapeCast S1x1 ab shapeCasts_S1_S1x1) broadcasts_S1x1_S10000x1 (ix2 p z) = ab (ix1 (0 : Fin 1)) := by
  refine (broadcastTo_apply _ broadcasts_S1x1_S10000x1 (ix2 p z) (ix2 (0 : Fin 1) (0 : Fin 1)) fun d => ?_).trans ?_
  · match d with
    | ⟨0, _⟩ => rfl
    | ⟨1, _⟩ => rfl
  · exact shapeCast_a_1a_apply ab shapeCasts_S1_S1x1 (0 : Fin 1) (0 : Fin 1)

/-- The message's bias, a vector viewed as one row and spread over the rows. -/
theorem biasRow_apply (mb : FVec Ideal S128 .f32) (p : Fin 10000) (q : Fin 128) :
    broadcastTo S10000x128 (shapeCast S1x128 mb shapeCasts_S128_S1x128) broadcasts_S1x128_S10000x128 (ix2 p q) = mb (ix1 q) :=
  (broadcastTo_1b_ab_apply _ broadcasts_S1x128_S10000x128 p q).trans (shapeCast_a_1a_apply mb shapeCasts_S128_S1x128 (0 : Fin 1) q)

/-- A column spread over 128 columns reads the column's entry of the row. -/
theorem colSpread_apply (g : FVec Ideal S10000x1 .f32) (p : Fin 10000) (q : Fin 128) :
    broadcastTo S10000x128 g broadcasts_S10000x1_S10000x128 (ix2 p q) = g (ix2 p (0 : Fin 1)) := by
  refine broadcastTo_apply g broadcasts_S10000x1_S10000x128 (ix2 p q) (ix2 p (0 : Fin 1)) fun d => ?_
  match d with
  | ⟨0, _⟩ => rfl
  | ⟨1, _⟩ => rfl

/-! ### The gate column, the rectified affine entry, and their product -/

/-- The logistic at an entry is the extended reals' logistic of the entry. -/
theorem logistic_at {s : Shape} (x : FVec Ideal s .f32) (i : s.Idx) : logistic x i = Ideal.logistic (x i) := rfl

/-- Entry p of the gate column: the logistic of the affine form of row p of the three blocks. -/
theorem gate_apply (hs hd : FVec Ideal S10000x128 .f32) (ef : FVec Ideal S10000x64 .f32) (aw : FVec Ideal S320x1 .f32)
    (ab : FVec Ideal S1 .f32) (p : Fin 10000) :
    logistic (addf
        (matmul Cert.KernelIdeal.dot_S10000x320_S320x1_S10000x1_1_0_0_1_n_n none
          (concatenate S10000x320 1 [⟨S10000x128, hs⟩, ⟨S10000x128, hd⟩, ⟨S10000x64, ef⟩] concatenates_S10000x128_S10000x128_S10000x64_S10000x320_d1)
          aw (constant (F := Ideal) S10000x1 .f32 0x00000000#32))
        (broadcastTo S10000x1 (shapeCast S1x1 ab shapeCasts_S1_S1x1) broadcasts_S1x1_S10000x1)) (ix2 p (0 : Fin 1))
      = Cert.Spec.gate (fun k => hs (ix2 p k)) (fun k => hd (ix2 p k)) (fun k => ef (ix2 p k))
          (fun k => aw (ix2 k (0 : Fin 1))) (ab (ix1 (0 : Fin 1))) := by
  unfold Cert.Spec.gate
  rw [logistic_at, addf_apply, gate_matmul_apply, bias1_apply]
  refine congrArg (fun s => Ideal.logistic (s + ab (ix1 (0 : Fin 1)))) (Finset.sum_congr rfl fun k _ => ?_)
  rw [concat3_apply]

/-- Entry (p, q) of the rectified affine map of row p of the two blocks. -/
theorem relu_apply (hs : FVec Ideal S10000x128 .f32) (ef : FVec Ideal S10000x64 .f32) (mw : FVec Ideal S192x128 .f32)
    (mb : FVec Ideal S128 .f32) (p : Fin 10000) (q : Fin 128) :
    maximumf (addf
        (matmul Cert.KernelIdeal.dot_S10000x192_S192x128_S10000x128_1_0_0_1_n_n none
          (concatenate S10000x192 1 [⟨S10000x128, hs⟩, ⟨S10000x64, ef⟩] concatenates_S10000x128_S10000x64_S10000x192_d1)
          mw (constant (F := Ideal) S10000x128 .f32 0x00000000#32))
        (broadcastTo S10000x128 (shapeCast S1x128 mb shapeCasts_S128_S1x128) broadcasts_S1x128_S10000x128))
      (broadcast S10000x128 (Scalar.ofBits (F := Ideal) .f32 0x00000000#32)) (ix2 p q)
      = max ((∑ k : Fin 192, Cert.Spec.cat2 (fun k => hs (ix2 p k)) (fun k => ef (ix2 p k)) k * mw (ix2 k q)) + mb (ix1 q))
          (Ideal.ofBits .f32 0x00000000#32) := by
  rw [maximumf_apply, addf_apply, aff_matmul_apply, biasRow_apply, broadcast_apply]
  refine congrArg (fun s => max (s + mb (ix1 q)) (Ideal.ofBits .f32 0x00000000#32)) (Finset.sum_congr rfl fun k _ => ?_)
  rw [concat2_apply]

/-- Entry (p, q) of the payload: the gate of row p times the rectified affine entry. -/
theorem pay0_apply (hs hd : Vec Ideal S10000x128 .f32) (ef : Vec Ideal S10000x64 .f32) (aw : Vec Ideal S320x1 .f32)
    (ab : Vec Ideal S1 .f32) (mw : Vec Ideal S192x128 .f32) (mb : Vec Ideal S128 .f32) (p : Fin 10000) (q : Fin 128) :
    k0_pay1 (F := Ideal) hs hd ef aw ab mw mb (ix2 p q)
      = Cert.Spec.msgRow (fun k => hs (ix2 p k)) (fun k => hd (ix2 p k)) (fun k => ef (ix2 p k))
          (fun k => aw (ix2 k (0 : Fin 1))) (ab (ix1 (0 : Fin 1))) (fun k j => mw (ix2 k j)) (fun j => mb (ix1 j)) q := by
  unfold k0_pay1 Cert.Spec.msgRow
  rw [shapeCast_self hs shapeCasts_S10000x128_S10000x128, shapeCast_self hd shapeCasts_S10000x128_S10000x128, mulf_apply,
    colSpread_apply, gate_apply, relu_apply]

end Cert.KernelIdeal.Msg

end
-- ==== Proof.Region0Value.lean ====
/-
  The message region's output array: the blocks of 10000 edges its eighty grid points write back tile the array, and
  each is the block's messages, so the array after the region is `msgArr` of the arrays the region finds.
-/
import proofs.«416091_j5514738008949_1_alg».proof.Proof.Gen.KernelIdeal.Frame
import proofs.«416091_j5514738008949_1_alg».proof.Proof.KernMsg
import proofs.«416091_j5514738008949_1_alg».proof.Proof.Spec
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat)

/-- The zero offsets of a rank-2 load or store, as the constant function. -/
theorem zeros2 : (![0, 0] : Fin 2 → Nat) = fun _ => 0 := funext fun a => by fin_cases a <;> rfl

/-- The zero offset of a rank-1 load, as the constant function. -/
theorem zeros1 : (![0] : Fin 1 → Nat) = fun _ => 0 := funext fun a => by fin_cases a; rfl

/-- The printed index maps over the eighty points: the two node windows, the edge-feature window and the message window
    sit at block (t, 0); the four weight windows stay at block 0. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

section Blocks

variable (V : (c : Dev nD) → (b : Ref sig .tc) → Buf (Elt Ideal) ((c : Thread nD τ).loc b))

/-- Row `p` of the source-node block at point `t` is row `10000 t + p` of the gathered source array. -/
theorem src_block (c : Dev nD) (t : Fin cfg0.N) (p : Fin 10000) (k : Fin 128) (e : Fin 800000)
    (he : e.val = 10000 * t.val + p.val) :
    (iblk0 V c 0 t : Vec Ideal S10000x128 .f32) (ix2 p k) = (V c main_v4 : S800000x128.Idx → EReal) (ix2 e k) := by
  obtain ⟨e0, e1, -⟩ := block_index t
  unfold iblk0
  rw [View.read_apply]
  show V c main_v4 (((cfg0.win 0).blk t).view.emb (ix2 p k)) = V c main_v4 (ix2 e k)
  congr 1
  funext a
  apply Fin.ext
  match a with
  | ⟨0, _⟩ => show win0_0.index t (0 : Fin 2) * 10000 + 1 * p.val = e.val; rw [e0, he]; omega
  | ⟨1, _⟩ => show win0_0.index t (1 : Fin 2) * 128 + 1 * k.val = k.val; rw [e1]; omega

/-- Row `p` of the destination-node block at point `t` is row `10000 t + p` of the gathered destination array. -/
theorem dst_block (c : Dev nD) (t : Fin cfg0.N) (p : Fin 10000) (k : Fin 128) (e : Fin 800000)
    (he : e.val = 10000 * t.val + p.val) :
    (iblk0 V c 1 t : Vec Ideal S10000x128 .f32) (ix2 p k) = (V c main_v5 : S800000x128.Idx → EReal) (ix2 e k) := by
  obtain ⟨-, -, e0, e1, -⟩ := block_index t
  unfold iblk0
  rw [View.read_apply]
  show V c main_v5 (((cfg0.win 1).blk t).view.emb (ix2 p k)) = V c main_v5 (ix2 e k)
  congr 1
  funext a
  apply Fin.ext
  match a with
  | ⟨0, _⟩ => show win0_1.index t (0 : Fin 2) * 10000 + 1 * p.val = e.val; rw [e0, he]; omega
  | ⟨1, _⟩ => show win0_1.index t (1 : Fin 2) * 128 + 1 * k.val = k.val; rw [e1]; omega

/-- Row `p` of the edge-feature block at point `t` is row `10000 t + p` of the edge-feature array. -/
theorem feat_block (c : Dev nD) (t : Fin cfg0.N) (p : Fin 10000) (k : Fin 64) (e : Fin 800000)
    (he : e.val = 10000 * t.val + p.val) :
    (iblk0 V c 2 t : Vec Ideal S10000x64 .f32) (ix2 p k) = (V c main_arg2 : S800000x64.Idx → EReal) (ix2 e k) := by
  obtain ⟨-, -, -, -, e0, e1, -⟩ := block_index t
  unfold iblk0
  rw [View.read_apply]
  show V c main_arg2 (((cfg0.win 2).blk t).view.emb (ix2 p k)) = V c main_arg2 (ix2 e k)
  congr 1
  funext a
  apply Fin.ext
  match a with
  | ⟨0, _⟩ => show win0_2.index t (0 : Fin 2) * 10000 + 1 * p.val = e.val; rw [e0, he]; omega
  | ⟨1, _⟩ => show win0_2.index t (1 : Fin 2) * 64 + 1 * k.val = k.val; rw [e1]; omega

/-- The gate's weight block at any point is the whole weight column. -/
theorem gatew_block (c : Dev nD) (t : Fin cfg0.N) (y : S320x1.Idx) :
    (iblk0 V c 3 t : Vec Ideal S320x1 .f32) y = (V c main_arg3 : S320x1.Idx → EReal) y := by
  obtain ⟨-, -, -, -, -, -, e0, e1, -⟩ := block_index t
  unfold iblk0
  rw [View.read_apply]
  show V c main_arg3 (((cfg0.win 3).blk t).view.emb y) = V c main_arg3 y
  congr 1
  funext a
  apply Fin.ext
  match a with
  | ⟨0, _⟩ => show win0_3.index t (0 : Fin 2) * 320 + 1 * (y 0).val = (y 0).val; rw [e0]; omega
  | ⟨1, _⟩ => show win0_3.index t (1 : Fin 2) * 1 + 1 * (y 1).val = (y 1).val; rw [e1]; omega

/-- The gate's bias block at any point is the whole one-entry bias. -/
theorem gateb_block (c : Dev nD) (t : Fin cfg0.N) (y : S1.Idx) :
    (iblk0 V c 4 t : Vec Ideal S1 .f32) y = (V c main_arg4 : S1.Idx → EReal) y := by
  obtain ⟨-, -, -, -, -, -, -, -, e0, -⟩ := block_index t
  unfold iblk0
  rw [View.read_apply]
  show V c main_arg4 (((cfg0.win 4).blk t).view.emb y) = V c main_arg4 y
  congr 1
  funext a
  apply Fin.ext
  match a with
  | ⟨0, _⟩ => show win0_4.index t (0 : Fin 1) * 1 + 1 * (y 0).val = (y 0).val; rw [e0]; omega

/-- The message weight block at any point is the whole weight matrix. -/
theorem msgw_block (c : Dev nD) (t : Fin cfg0.N) (y : S192x128.Idx) :
    (iblk0 V c 5 t : Vec Ideal S192x128 .f32) y = (V c main_arg5 : S192x128.Idx → EReal) y := by
  obtain ⟨-, -, -, -, -, -, -, -, -, e0, e1, -⟩ := block_index t
  unfold iblk0
  rw [View.read_apply]
  show V c main_arg5 (((cfg0.win 5).blk t).view.emb y) = V c main_arg5 y
  congr 1
  funext a
  apply Fin.ext
  match a with
  | ⟨0, _⟩ => show win0_5.index t (0 : Fin 2) * 192 + 1 * (y 0).val = (y 0).val; rw [e0]; omega
  | ⟨1, _⟩ => show win0_5.index t (1 : Fin 2) * 128 + 1 * (y 1).val = (y 1).val; rw [e1]; omega

/-- The message bias block at any point is the whole bias row. -/
theorem msgb_block (c : Dev nD) (t : Fin cfg0.N) (y : S128.Idx) :
    (iblk0 V c 6 t : Vec Ideal S128 .f32) y = (V c main_arg6 : S128.Idx → EReal) y := by
  obtain ⟨-, -, -, -, -, -, -, -, -, -, -, e0, -⟩ := block_index t
  unfold iblk0
  rw [View.read_apply]
  show V c main_arg6 (((cfg0.win 6).blk t).view.emb y) = V c main_arg6 y
  congr 1
  funext a
  apply Fin.ext
  match a with
  | ⟨0, _⟩ => show win0_6.index t (0 : Fin 1) * 128 + 1 * (y 0).val = (y 0).val; rw [e0]; omega

/-- Entry `(p, q)` of the message block at point `t` sits at `(10000 t + p, q)` of the message array. -/
theorem msg_emb (t : Fin cfg0.N) (p : Fin 10000) (q : Fin 128) (e : Fin 800000) (he : e.val = 10000 * t.val + p.val) :
    (((cfg0.win 7).blk t).view.emb (ix2 p q) : S800000x128.Idx) = ix2 e q := by
  obtain ⟨-, -, -, -, -, -, -, -, -, -, -, -, e0, e1⟩ := block_index t
  funext a
  apply Fin.ext
  match a with
  | ⟨0, _⟩ => show win0_7.index t (0 : Fin 2) * 10000 + 1 * p.val = e.val; rw [e0, he]; omega
  | ⟨1, _⟩ => show win0_7.index t (1 : Fin 2) * 128 + 1 * q.val = q.val; rw [e1]; omega

/-- A message row depends on its seven arguments only through their entries. -/
theorem msgRow_congr {hs hs' hd hd' : Fin 128 → EReal} {ef ef' : Fin 64 → EReal} {aw aw' : Fin 320 → EReal} {ab ab' : EReal}
    {mw mw' : Fin 192 → Fin 128 → EReal} {mb mb' : Fin 128 → EReal} (h0 : ∀ k, hs k = hs' k) (h1 : ∀ k, hd k = hd' k)
    (h2 : ∀ k, ef k = ef' k) (h3 : ∀ k, aw k = aw' k) (h4 : ab = ab') (h5 : ∀ k j, mw k j = mw' k j) (h6 : ∀ j, mb j = mb' j)
    (q : Fin 128) : Cert.Spec.msgRow hs hd ef aw ab mw mb q = Cert.Spec.msgRow hs' hd' ef' aw' ab' mw' mb' q := by
  obtain rfl : hs = hs' := funext h0
  obtain rfl : hd = hd' := funext h1
  obtain rfl : ef = ef' := funext h2
  obtain rfl : aw = aw' := funext h3
  obtain rfl : mw = mw' := funext fun k => funext (h5 k)
  obtain rfl : mb = mb' := funext h6
  rw [h4]

/-- What point `t` writes back is block `t` of the message array of the arrays the region finds. -/
theorem flushed_eq (c : Dev nD) (t : Fin cfg0.N) :
    (dat0 (F := Ideal) V c).flushed 7 t = ((cfg0.win 7).blk t).view.read (Elt Ideal)
      (Cert.Spec.msgArr (V c main_v4) (V c main_v5) (V c main_arg2) (V c main_arg3) (V c main_arg4) (V c main_arg5) (V c main_arg6)) := by
  show (cfg0.win 7).cut (grid0.coords t) ((dat0 V c).after 7 t) = _
  rw [after0_7]
  unfold out0_7
  rw [View.canon_unit_zero zeros2]
  simp only [View.ld_unit_zero (S := S10000x128) zeros2, View.ld_unit_zero (S := S10000x64) zeros2,
    View.ld_unit_zero (S := S320x1) zeros2, View.ld_unit_zero (S := S1) zeros1, View.ld_unit_zero (S := S192x128) zeros2,
    View.ld_unit_zero (S := S128) zeros1]
  funext j
  obtain ⟨p, q, rfl⟩ : ∃ (p : Fin 10000) (q : Fin 128), j = ix2 p q := ⟨j 0, j 1, eq_ix2 (n0 := 10000) (n1 := 128) j⟩
  have hN : cfg0.N = 80 := N_0
  have ht : t.val < 80 := hN ▸ t.isLt
  obtain ⟨e, he⟩ : ∃ e : Fin 800000, e.val = 10000 * t.val + p.val := ⟨⟨10000 * t.val + p.val, by omega⟩, rfl⟩
  show k0_pay1 (F := Ideal) (iblk0 V c 0 t) (iblk0 V c 1 t) (iblk0 V c 2 t) (iblk0 V c 3 t) (iblk0 V c 4 t) (iblk0 V c 5 t)
      (iblk0 V c 6 t) (ix2 p q)
    = Cert.Spec.msgArr (V c main_v4) (V c main_v5) (V c main_arg2) (V c main_arg3) (V c main_arg4) (V c main_arg5)
      (V c main_arg6) (((cfg0.win 7).blk t).view.emb (ix2 p q))
  refine (Cert.KernelIdeal.Msg.pay0_apply _ _ _ _ _ _ _ p q).trans ?_
  rw [msg_emb t p q e he]
  unfold Cert.Spec.msgArr
  exact msgRow_congr (fun k => src_block V c t p k e he) (fun k => dst_block V c t p k e he)
    (fun k => feat_block V c t p k e he) (fun k => gatew_block V c t _) (gateb_block V c t _)
    (fun k j => msgw_block V c t _) (fun j => msgb_block V c t _) q

end Blocks

/-- An index of the message array is in point `t`'s block iff each coordinate is in the block's range on its axis. -/
theorem mem_block (t : Fin cfg0.N) (i : S800000x128.Idx) :
    i ∈ ((cfg0.win 7).blk t).view.set ↔ ∀ a : Fin 2, win0_7.index t a * S10000x128.size a ≤ (i a).val
      ∧ (i a).val < win0_7.index t a * S10000x128.size a + S10000x128.size a := by
  show i ∈ ((View.whole main_v6).slice (win0_7.rect t)).set ↔ _
  rw [View.set_slice_whole, Rect.mem_set_unit]
  exact Iff.rfl

/-- Edge row `r` lies in the block of point `r / 10000`, which writes back: the eighty blocks tile the array. -/
theorem cover (i : S800000x128.Idx) :
    ∃ t : Fin cfg0.N, (cfg0.win 7).flush t = true ∧ i ∈ ((cfg0.win 7).blk t).view.set := by
  have hN : cfg0.N = 80 := N_0
  have hi0 : (i 0).val < 800000 := (i 0).isLt
  have hi1 : (i 1).val < 128 := (i 1).isLt
  obtain ⟨t, ht⟩ : ∃ t : Fin cfg0.N, t.val = (i 0).val / 10000 := ⟨⟨(i 0).val / 10000, by rw [hN]; omega⟩, rfl⟩
  refine ⟨t, flush0_7 t, ?_⟩
  rw [mem_block]
  obtain ⟨-, -, -, -, -, -, -, -, -, -, -, -, e0, e1⟩ := block_index t
  intro a
  match a with
  | ⟨0, _⟩ =>
    show win0_7.index t (0 : Fin 2) * 10000 ≤ (i 0).val ∧ (i 0).val < win0_7.index t (0 : Fin 2) * 10000 + 10000
    rw [e0, ht]; omega
  | ⟨1, _⟩ =>
    show win0_7.index t (1 : Fin 2) * 128 ≤ (i 1).val ∧ (i 1).val < win0_7.index t (1 : Fin 2) * 128 + 128
    rw [e1]; omega

theorem final (V : (c : Dev nD) → (b : Ref sig .tc) → Buf (Elt Ideal) ((c : Thread nD τ).loc b)) (c : Dev nD) :
    (dat0 (F := Ideal) V c).arrAt 7 cfg0.N
      = Cert.Spec.msgArr (V c main_v4) (V c main_v5) (V c main_arg2) (V c main_arg3) (V c main_arg4) (V c main_arg5) (V c main_arg6) := by
  exact (dat0 (F := Ideal) V c).arrAt_eq_of_cover 7 _ (fun t _ => flushed_eq V c t) cover

end Cert.KernelIdeal.Region0

end
-- ==== Proof.KernLN.lean ====
/-
  The normalising kernel's payload at an index: entry (p, q) of the body's result on a block of 5000 rows is
  `lnRow` of the block's row p.
-/
import proofs.«416091_j5514738008949_1_alg».proof.Proof.Gen.KernelIdeal.Skeleton
import proofs.«416091_j5514738008949_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.LN

open Cert.KernelIdeal Cert.KernelIdeal.Gen Idealize.ShloMosaic Idealize.ShloMosaic.ValueIdx

/-! ## A column of row values: the layout operations that form it and spread it, read at an index -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[b]` array cast to `[1, b]` and broadcast to `[a, b]` reads, at `(p, c)`, the operand at `c`. -/
theorem broadcastTo_shapeCast_b_ab_apply {α : Type} {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ v hc) hb (ix2 p c) = v (ix1 c) :=
  (broadcastTo_1b_ab_apply _ hb p c).trans (shapeCast_a_1a_apply v hc (0 : Fin 1) c)

/-! ## A lane sum of the block read at a row -/

/-- The sum along the lanes of a block of 5000 rows of 128 reads, at row `p`, the sum of that row's entries. -/
theorem laneSum_apply (v : FVec Ideal S5000x128 .f32) (h : S5000x128.Reduces [1] S5000) (hφ : FKind.Formats .f32)
    (hacc : (0x00000000#32 : BitVec 32) = FKind.add.neutral .f32 hφ) (p : Fin 5000) :
    multiReduction (F := Ideal) .add [1] S5000 v 0x00000000#32 h hφ hacc (ix1 p) = ∑ k : Fin 128, v (ix2 p k) := by
  refine (Ideal.multiReduction_add_single v _ h hφ hacc (ix1 p)).trans ?_
  refine Finset.sum_congr rfl fun k _ => congrArg v ?_
  funext a
  match a with
  | ⟨0, _⟩ => exact Fin.ext rfl
  | ⟨1, _⟩ => exact Fin.ext rfl

/-! ## The row statistics as the body computes them -/

section RowStatistics
variable (x : FVec Ideal S5000x128 .f32) (h : S5000x128.Reduces [1] S5000) (hφ : FKind.Formats .f32)
  (hacc : (0x00000000#32 : BitVec 32) = FKind.add.neutral .f32 hφ) (hc : S5000.ShapeCasts S5000x1)
  (hb : S5000x1.Broadcasts S5000x128)

/-- The column of lane sums divided by a constant, spread back over the lanes, reads at `(p, q)` the quotient of
    row `p`'s sum by the constant. -/
theorem quotCol_apply (c : Ideal .f32) (p : Fin 5000) (q : Fin 128) :
    broadcastTo S5000x128
        (divf (shapeCast S5000x1 (multiReduction (F := Ideal) .add [1] S5000 x 0x00000000#32 h hφ hacc) hc)
          (broadcast S5000x1 c)) hb (ix2 p q)
      = Ideal.div (∑ k : Fin 128, x (ix2 p k)) c :=
  (broadcastTo_a1_ab_apply _ hb p q).trans
    (congrArg (fun t => Ideal.div t c) ((shapeCast_a_a1_apply _ hc p (0 : Fin 1)).trans (laneSum_apply x h hφ hacc p)))

/-- The block minus its rows' means, spread back over the lanes. -/
def devBlock : FVec Ideal S5000x128 .f32 :=
  subf x (broadcastTo S5000x128
    (divf (shapeCast S5000x1 (multiReduction (F := Ideal) .add [1] S5000 x 0x00000000#32 h hφ hacc) hc)
      (broadcast S5000x1 (Ideal.ofBits .f32 0x43000000#32))) hb)

/-- It reads at `(p, k)` the deviation of row `p`'s entry `k` from the row's mean. -/
theorem devBlock_apply (p : Fin 5000) (k : Fin 128) :
    devBlock x h hφ hacc hc hb (ix2 p k) = x (ix2 p k) - Cert.Spec.rowMean (fun k => x (ix2 p k)) :=
  congrArg (fun t => x (ix2 p k) - t) (quotCol_apply x h hφ hacc hc hb _ p k)

/-- The column of reciprocal square roots of the rows' variances plus the small constant, spread back over the lanes,
    reads at `(p, q)` that of row `p`. -/
theorem rsqrtCol_apply (p : Fin 5000) (q : Fin 128) :
    broadcastTo S5000x128
        (rsqrt (addf
          (divf
            (shapeCast S5000x1
              (multiReduction (F := Ideal) .add [1] S5000
                (mulf (devBlock x h hφ hacc hc hb) (devBlock x h hφ hacc hc hb)) 0x00000000#32 h hφ hacc) hc)
            (broadcast S5000x1 (Ideal.ofBits .f32 0x43000000#32)))
          (broadcast S5000x1 (Ideal.ofBits .f32 0x3727C5AC#32)))) hb (ix2 p q)
      = Ideal.rsqrt (Cert.Spec.rowVar (fun k => x (ix2 p k)) + Ideal.ofBits .f32 0x3727C5AC#32) :=
  (broadcastTo_a1_ab_apply _ hb p q).trans
    (congrArg
      (fun t => Ideal.rsqrt (Ideal.div t (Ideal.ofBits .f32 0x43000000#32) + Ideal.ofBits .f32 0x3727C5AC#32))
      ((shapeCast_a_a1_apply _ hc p (0 : Fin 1)).trans
        ((laneSum_apply _ h hφ hacc p).trans
          (Finset.sum_congr rfl fun k _ =>
            congrArg₂ (· * ·) (devBlock_apply x h hφ hacc hc hb p k) (devBlock_apply x h hφ hacc hc hb p k)))))

end RowStatistics

theorem pay1_apply (x : Vec Ideal S5000x128 .f32) (g b : Vec Ideal S128 .f32) (p : Fin 5000) (q : Fin 128) :
    k1_pay1 (F := Ideal) x g b (ix2 p q)
      = Cert.Spec.lnRow (fun k => x (ix2 p k)) (fun k => g (ix1 k)) (fun k => b (ix1 k)) q := by
  have hx : shapeCast S5000x128 x shapeCasts_S5000x128_S5000x128 = x := shapeCast_self x _
  unfold k1_pay1
  rw [hx]
  refine congrArg₂ max (congrArg₂ (· + ·) (congrArg₂ (· * ·) (congrArg₂ (· * ·)
      (devBlock_apply x reduces_S5000x128_S5000 _ _ shapeCasts_S5000_S5000x1 broadcasts_S5000x1_S5000x128 p q)
      (rsqrtCol_apply x reduces_S5000x128_S5000 _ _ shapeCasts_S5000_S5000x1 broadcasts_S5000x1_S5000x128 p q))
      (broadcastTo_shapeCast_b_ab_apply g shapeCasts_S128_S1x128 broadcasts_S1x128_S5000x128 p q))
      (broadcastTo_shapeCast_b_ab_apply b shapeCasts_S128_S1x128 broadcasts_S1x128_S5000x128 p q)) rfl

end Cert.KernelIdeal.LN

end
-- ==== Proof.Region1Value.lean ====
/-
  The normalising region's output array: the blocks of 5000 rows its ten grid points write back tile the array, and
  each is the block's rows normalised, so the array after the region is `lnArr` of the arrays the region finds.
-/
import proofs.«416091_j5514738008949_1_alg».proof.Proof.Gen.KernelIdeal.Frame
import proofs.«416091_j5514738008949_1_alg».proof.Proof.KernLN
import proofs.«416091_j5514738008949_1_alg».proof.Proof.Spec
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat)

/-- The zero offsets of a rank-2 block, as a constant function. -/
theorem zero2 : (![0, 0] : Fin 2 → Nat) = fun _ => 0 := funext fun a => by fin_cases a <;> rfl
/-- The zero offset of a rank-1 block, as a constant function. -/
theorem zero1 : (![0] : Fin 1 → Nat) = fun _ => 0 := funext fun a => by fin_cases a <;> rfl

/-- The printed index maps over the grid: the row windows' block index on axis 0 is the point, on axis 1 zero; the
    scale's and the shift's block index is zero. -/
theorem index_facts : ∀ t : Fin cfg1.N, win1_0.index t (0 : Fin 2) = t.val ∧ win1_0.index t (1 : Fin 2) = 0
    ∧ win1_3.index t (0 : Fin 2) = t.val ∧ win1_3.index t (1 : Fin 2) = 0
    ∧ win1_1.index t (0 : Fin 1) = 0 ∧ win1_2.index t (0 : Fin 1) = 0 :=
  (by decide +kernel : ∀ t : Fin grid1.N, _)

/-- The payload at any index of a block, the index split into its row and its column. -/
theorem pay_at (x : Vec Ideal S5000x128 .f32) (g b : Vec Ideal S128 .f32) (j : S5000x128.Idx) :
    k1_pay1 (F := Ideal) x g b j
      = Cert.Spec.lnRow (fun k => x (ix2 (⟨(j 0).val, idx2_lt0 j⟩ : Fin 5000) k)) (fun k => g (ix1 k)) (fun k => b (ix1 k))
          (⟨(j 1).val, idx2_lt1 j⟩ : Fin 128) := by
  have e : j = ix2 (⟨(j 0).val, idx2_lt0 j⟩ : Fin 5000) (⟨(j 1).val, idx2_lt1 j⟩ : Fin 128) := eq_ix2 j
  exact (congrArg (k1_pay1 (F := Ideal) x g b) e).trans (Cert.KernelIdeal.LN.pay1_apply x g b _ _)

/-- Row `y 0` of the row window's block at point `t` is row `5000 t + y 0` of the array. -/
theorem rows_read (V : (c : Dev nD) → (b : Ref sig .tc) → Buf (Elt Ideal) ((c : Thread nD τ).loc b)) (c : Dev nD) (t : Fin cfg1.N) (y : S5000x128.Idx) (i : S50000x128.Idx)
    (h0 : (i 0).val = 5000 * t.val + (y 0).val) (h1 : (i 1).val = (y 1).val) :
    (iblk1 V c 0 t : Vec Ideal S5000x128 .f32) y = (V c main_v9 : S50000x128.Idx → Elt Ideal .f32) i := by
  obtain ⟨e0, e1, -⟩ := index_facts t
  unfold iblk1
  rw [View.read_apply]
  show V c main_v9 _ = V c main_v9 _
  congr 1
  funext a
  apply Fin.ext
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- The scale's block at any point is the whole scale. -/
theorem scale_read (V : (c : Dev nD) → (b : Ref sig .tc) → Buf (Elt Ideal) ((c : Thread nD τ).loc b)) (c : Dev nD) (t : Fin cfg1.N) (y : S128.Idx) :
    (iblk1 V c 1 t : Vec Ideal S128 .f32) y = (V c main_arg7 : S128.Idx → Elt Ideal .f32) y := by
  obtain ⟨-, -, -, -, e, -⟩ := index_facts t
  unfold iblk1
  rw [View.read_apply]
  show V c main_arg7 _ = V c main_arg7 _
  congr 1
  funext a
  apply Fin.ext
  match a with
  | ⟨0, _⟩ => show win1_1.index t (0 : Fin 1) * 128 + 1 * (y 0).val = (y 0).val; rw [e]; omega

/-- The shift's block at any point is the whole shift. -/
theorem shift_read (V : (c : Dev nD) → (b : Ref sig .tc) → Buf (Elt Ideal) ((c : Thread nD τ).loc b)) (c : Dev nD) (t : Fin cfg1.N) (y : S128.Idx) :
    (iblk1 V c 2 t : Vec Ideal S128 .f32) y = (V c main_arg8 : S128.Idx → Elt Ideal .f32) y := by
  obtain ⟨-, -, -, -, -, e⟩ := index_facts t
  unfold iblk1
  rw [View.read_apply]
  show V c main_arg8 _ = V c main_arg8 _
  congr 1
  funext a
  apply Fin.ext
  match a with
  | ⟨0, _⟩ => show win1_2.index t (0 : Fin 1) * 128 + 1 * (y 0).val = (y 0).val; rw [e]; omega

/-- What point `t` writes back is its block of the normalised array: entry (p, q) of the body's result is the normalised
    row p of the block, which is row `5000 t + p` of the array, at column q. -/
theorem flushed_eq (V : (c : Dev nD) → (b : Ref sig .tc) → Buf (Elt Ideal) ((c : Thread nD τ).loc b)) (c : Dev nD) (t : Fin cfg1.N) :
    (dat1 (F := Ideal) V c).flushed 3 t
      = ((cfg1.win 3).blk t).view.read (Elt Ideal) (Cert.Spec.lnArr (V c main_v9) (V c main_arg7) (V c main_arg8)) := by
  show (cfg1.win 3).cut (grid1.coords t) ((dat1 V c).after 3 t) = _
  rw [after1_3]
  unfold out1_3
  rw [View.canon_unit_zero zero2]
  simp only [View.ld_unit_zero (S := S5000x128) zero2, View.ld_unit_zero (S := S128) zero1]
  funext j
  show k1_pay1 (F := Ideal) (iblk1 V c 0 t) (iblk1 V c 1 t) (iblk1 V c 2 t) j
    = Cert.Spec.lnArr (V c main_v9) (V c main_arg7) (V c main_arg8) (((cfg1.win 3).blk t).view.emb j)
  refine (pay_at _ _ _ j).trans ?_
  obtain ⟨-, -, e0, e1, -, -⟩ := index_facts t
  have hrow : ((((cfg1.win 3).blk t).view.emb j) 0).val = 5000 * t.val + (j 0).val := by
    show win1_3.index t (0 : Fin 2) * 5000 + 1 * (j 0).val = _
    rw [e0]; omega
  have hcol : ((((cfg1.win 3).blk t).view.emb j) 1).val = (j 1).val := by
    show win1_3.index t (1 : Fin 2) * 128 + 1 * (j 1).val = _
    rw [e1]; omega
  unfold Cert.Spec.lnArr
  refine congr (congr (congr (congrArg Cert.Spec.lnRow (funext fun k => ?_)) (funext fun k => ?_)) (funext fun k => ?_)) (Fin.ext ?_)
  · exact rows_read V c t _ _ hrow rfl
  · exact scale_read V c t _
  · exact shift_read V c t _
  · exact hcol.symm

/-- An index of the array is in point `t`'s block iff each coordinate is in the block's range on its axis. -/
theorem mem_blk (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v10).slice (win1_3.rect t)).set ↔ _
  rw [View.set_slice_whole, Rect.mem_set_unit]
  exact Iff.rfl

/-- The blocks tile the array: row `r` is in the block of point `r / 5000`, which writes back. -/
theorem cover (i : S50000x128.Idx) :
    ∃ t : Fin cfg1.N, (cfg1.win 3).flush t = true ∧ i ∈ ((cfg1.win 3).blk t).view.set := by
  have hN : cfg1.N = 10 := N_1
  have hi0 : (i 0).val < 50000 := (i 0).isLt
  have hi1 : (i 1).val < 128 := (i 1).isLt
  have ht : (i 0).val / 5000 < cfg1.N := by omega
  refine ⟨⟨(i 0).val / 5000, ht⟩, flush1_3 _, ?_⟩
  rw [mem_blk]
  obtain ⟨-, -, e0, e1, -, -⟩ := index_facts ⟨(i 0).val / 5000, ht⟩
  have e0' : win1_3.index ⟨(i 0).val / 5000, ht⟩ (0 : Fin 2) = (i 0).val / 5000 := e0
  intro a
  match a with
  | ⟨0, _⟩ =>
    show win1_3.index ⟨(i 0).val / 5000, ht⟩ (0 : Fin 2) * 5000 ≤ (i 0).val
      ∧ (i 0).val < win1_3.index ⟨(i 0).val / 5000, ht⟩ (0 : Fin 2) * 5000 + 5000
    rw [e0']; omega
  | ⟨1, _⟩ =>
    show win1_3.index ⟨(i 0).val / 5000, ht⟩ (1 : Fin 2) * 128 ≤ (i 1).val
      ∧ (i 1).val < win1_3.index ⟨(i 0).val / 5000, ht⟩ (1 : Fin 2) * 128 + 128
    rw [e1]; omega

/-- The array after the region: every index is in some point's block, and each point wrote its block of the normalised
    array, so the array is the normalised array. -/
theorem final (V : (c : Dev nD) → (b : Ref sig .tc) → Buf (Elt Ideal) ((c : Thread nD τ).loc b)) (c : Dev nD) :
    (dat1 (F := Ideal) V c).arrAt 3 cfg1.N = Cert.Spec.lnArr (V c main_v9) (V c main_arg7) (V c main_arg8) := by
  exact (dat1 (F := Ideal) V c).arrAt_eq_of_cover 3 _ (fun t _ => flushed_eq V c t) cover

end Cert.KernelIdeal.Region1

end
-- ==== Proof.HostK.lean ====
/-
  The host stretches of the kernel program, read as values.  Before the message region: with every edge index a
  node number, the bounds test of each `take` passes on every row, so the two gathered arrays are the reference's
  plain gathers; the other operands are the arguments.  Between the regions: the aggregated array is the
  scatter-add, into zeros at the destination indices, of what the message region left.
-/
import proofs.«416091_j5514738008949_1_alg».proof.Proof.Gen.KernelIdeal.Frame
import proofs.«416091_j5514738008949_1_alg».proof.Proof.Gen.ReferenceIdeal.Read
import Idealize.ShloMosaic.Lib.StableHlo.Run
import Idealize.ShloMosaic.Lib.StableHlo.Predicate

set_option maxRecDepth 16384

noncomputable section

namespace Cert.KernelIdeal.HostK

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- A buffer none of a stretch's operations writes holds after the stretch what it held before. -/
local macro "unwritten " l:ident : tactic =>
  `(tactic| exact StableHlo.after_of_forall_not_mem _ _ (List.forall_iff_forall_mem.mp (by
      simp only [$l:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-- A buffer none of the three stretches before the message region writes holds at the region's entry what it held
    at launch. -/
local macro "entry_unwritten " m:ident ρ:ident c:ident b:ident : tactic =>
  `(tactic| exact
    calc W3 $m $ρ $c (Proc.devRef .tc $b)
      _ = W2 $m $ρ $c (Proc.devRef .tc $b) := by unwritten hostOps0_2
      _ = W1 $m $ρ $c (Proc.devRef .tc $b) := by unwritten hostOps0_1
      _ = W0 $m $ρ $c (Proc.devRef .tc $b) := by unwritten hostOps0
      _ = $m (($c : Thread nD τ).loc $b) := rfl)

/-- Every entry of the edge-index array is a node number. -/
def InRange (x1 : IVec S2x800000 32) : Prop := ∀ i : S2x800000.Idx, 0 ≤ (x1 i).toInt ∧ (x1 i).toInt < 50000

/-! ## Words: a node number under the wrap of negative indices and under the bounds test -/

/-- A word that is not negative is not below zero. -/
theorem cmpi_slt_zero (x : BitVec 32) (h0 : 0 ≤ x.toInt) : IntOp.cmpi .slt x 0#32 = 0#1 := by
  have e : x.slt 0#32 = false := by
    simp only [BitVec.slt, show (0#32 : BitVec 32).toInt = 0 from by decide, decide_eq_false_iff_not]; omega
  show BitVec.ofBool (x.slt 0#32) = 0#1
  rw [e]; rfl

/-- A word that is not negative is at least zero. -/
theorem cmpi_sge_zero (x : BitVec 32) (h0 : 0 ≤ x.toInt) : IntOp.cmpi .sge x 0#32 = 1#1 := by
  have e : (0#32 : BitVec 32).sle x = true := by
    simp only [BitVec.sle, show (0#32 : BitVec 32).toInt = 0 from by decide, decide_eq_true_eq]; exact h0
  show BitVec.ofBool ((0#32 : BitVec 32).sle x) = 1#1
  rw [e]; rfl

/-- A word below 50000 is at most 49999. -/
theorem cmpi_sle_last (x : BitVec 32) (h1 : x.toInt < 50000) : IntOp.cmpi .sle x 49999#32 = 1#1 := by
  have e : x.sle 49999#32 = true := by
    simp only [BitVec.sle, show (49999#32 : BitVec 32).toInt = 49999 from by decide, decide_eq_true_eq]; omega
  show BitVec.ofBool (x.sle 49999#32) = 1#1
  rw [e]; rfl

/-- A left fold by `and` from 1 over ones is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 from by decide]
    exact foldl_andi_one f l fun n hn => h n (List.mem_cons_of_mem _ hn)

/-- A reduction by `and` from 1 of an array of ones is 1 everywhere. -/
theorem reduce_andi_one {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_andi_one x _ fun n _ => hx n

/-! ## What a `take` computes -/

/-- The start indices of a `take`: a negative index wrapped by the table's length, laid as a column. -/
def wrapIdx (row : IVec S800000 32) : IVec S800000x1 32 :=
  broadcastInDim S800000x1 ![0] bcast_S800000_S800000x1_0
    (select (cmpi .slt row (broadcastInDim S800000 ![] bcast_S_S800000 (constantI S_ 32 0#32)))
      (addi row (broadcastInDim S800000 ![] bcast_S_S800000 (constantI S_ 32 50000#32))) row)

/-- The bounds test of a `take`, per row: the start index is at least 0 and at most 49999. -/
def boundsMask (idx : IVec S800000x1 32) : IVec S800000 1 :=
  Host.reduce IntOp.andi
    (andi (cmpi .sge idx (broadcastInDim S800000x1 ![] bcast_S_S800000x1 (constantI S_ 32 0#32)))
      (cmpi .sle idx (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

variable {F : FTy → Type} [FloatOps F]

/-- The last step of a `take`: the gathered row where the bounds test passed, the NaN pattern elsewhere. -/
def takeSelect (mask : IVec S800000 1) (x0 : FVec F S50000x128 .f32) (idx : IVec S800000x1 32) : FVec F S800000x128 .f32 :=
  select (broadcastInDim S800000x128 ![0] bcast_S800000_S800000x128_0 mask)
    (Host.gather gather_S50000x128_S800000x1_S800000x128_1_0_n_n_0_1_1128 x0 idx)
    (broadcastInDim S800000x128 ![] bcast_S_S800000x128 (constant S_ .f32 0x7FC00000#32))

/-- What a `take` leaves, from the table and the row of indices. -/
def takeTerm (x0 : FVec F S50000x128 .f32) (row : IVec S800000 32) : FVec F S800000x128 .f32 :=
  takeSelect (boundsMask (wrapIdx row)) x0 (wrapIdx row)

/-- A start index is its row's entry when that entry is a node number. -/
theorem wrapIdx_apply (row : IVec S800000 32) (hrow : ∀ j, 0 ≤ (row j).toInt ∧ (row j).toInt < 50000)
    (k : S800000x1.Idx) : ∃ j, wrapIdx row k = row j := by
  refine ⟨?_, ?_⟩
  swap
  show Scalar.select (IntOp.cmpi .slt (row _) 0#32) (IntOp.addi (row _) 50000#32) (row _) = row _
  rw [cmpi_slt_zero _ (hrow _).1, ValueIdx.select_zero]

/-- With every entry a node number the bounds test passes on every row. -/
theorem boundsMask_one (row : IVec S800000 32) (hrow : ∀ j, 0 ≤ (row j).toInt ∧ (row j).toInt < 50000)
    (j : S800000.Idx) : boundsMask (wrapIdx row) j = 1#1 := by
  unfold boundsMask
  refine reduce_andi_one _ _ _ _ (fun _ => rfl) (fun k => ?_) j
  show IntOp.andi (IntOp.cmpi .sge (wrapIdx row k) 0#32) (IntOp.cmpi .sle (wrapIdx row k) 49999#32) = 1#1
  obtain ⟨j', hj⟩ := wrapIdx_apply row hrow k
  rw [hj, cmpi_sge_zero _ (hrow j').1, cmpi_sle_last _ (hrow j').2]
  decide

/-- So the `take` is the plain gather. -/
theorem takeTerm_eq (x0 : FVec F S50000x128 .f32) (row : IVec S800000 32)
    (hrow : ∀ j, 0 ≤ (row j).toInt ∧ (row j).toInt < 50000) :
    takeTerm x0 row = Host.gather gather_S50000x128_S800000x1_S800000x128_1_0_n_n_0_1_1128 x0 (wrapIdx row) := by
  funext i
  unfold takeTerm takeSelect
  have hm : broadcastInDim S800000x128 ![0] bcast_S800000_S800000x128_0 (boundsMask (wrapIdx row)) i = 1#1 :=
    boundsMask_one row hrow _
  rw [ValueIdx.select_apply, hm, ValueIdx.select_one]

/-! ## The stretches, read at the buffers the regions take -/

/-! ### The first `take`, in three pieces: the wrap, the bounds test, the gather and the select -/

/-- The first `take`'s wrap of negative indices, laid as a column. -/
abbrev wrapOps0 : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S800000, .i32⟩) (broadcastInDim S800000 ![] bcast_S_S800000),
    StableHlo.TRef.binary (.of main_v1 : StableHlo.TRef sig ⟨S800000, .i32⟩) (.of main_call0_v0 : StableHlo.TRef sig ⟨S800000, .i32⟩) (.of main_call0_v1 : StableHlo.TRef sig ⟨S800000, .i1⟩) (cmpi .slt),
    StableHlo.TRef.nullary (.of main_call0_c_0 : StableHlo.TRef sig ⟨S_, .i32⟩) (constantI S_ 32 50000#32),
    StableHlo.TRef.unary (.of main_call0_c_0 : StableHlo.TRef sig ⟨S_, .i32⟩) (.of main_call0_v2 : StableHlo.TRef sig ⟨S800000, .i32⟩) (broadcastInDim S800000 ![] bcast_S_S800000),
    StableHlo.TRef.binary (.of main_v1 : StableHlo.TRef sig ⟨S800000, .i32⟩) (.of main_call0_v2 : StableHlo.TRef sig ⟨S800000, .i32⟩) (.of main_call0_v3 : StableHlo.TRef sig ⟨S800000, .i32⟩) addi,
    StableHlo.TRef.ternary (.of main_call0_v1 : StableHlo.TRef sig ⟨S800000, .i1⟩) (.of main_call0_v3 : StableHlo.TRef sig ⟨S800000, .i32⟩) (.of main_v1 : StableHlo.TRef sig ⟨S800000, .i32⟩) (.of main_call0_v4 : StableHlo.TRef sig ⟨S800000, .i32⟩) select,
    StableHlo.TRef.unary main_call0_call0.v0 (.of main_call0_v5 : StableHlo.TRef sig ⟨S800000x1, .i32⟩) (broadcastInDim S800000x1 ![0] bcast_S800000_S800000x1_0) ]

/-- Its bounds test. -/
abbrev maskOps0 : List (HloOp τ sig (Elt F)) :=
  [ StableHlo.TRef.nullary (.of main_call0_c_1 : StableHlo.TRef sig ⟨S1, .i32⟩) (constantI S1 32 49999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S800000x1, .i32⟩) (broadcastInDim S800000x1 ![] bcast_S_S800000x1),
    StableHlo.TRef.binary (.of main_call0_v5 : StableHlo.TRef sig ⟨S800000x1, .i32⟩) (.of main_call0_v6 : StableHlo.TRef sig ⟨S800000x1, .i32⟩) (.of main_call0_v7 : StableHlo.TRef sig ⟨S800000x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S800000x1, .i32⟩) (broadcastInDim S800000x1 ![0, 1] bcast_S1x1_S800000x1_0_1),
    StableHlo.TRef.binary (.of main_call0_v5 : StableHlo.TRef sig ⟨S800000x1, .i32⟩) (.of main_call0_v9 : StableHlo.TRef sig ⟨S800000x1, .i32⟩) (.of main_call0_v10 : StableHlo.TRef sig ⟨S800000x1, .i1⟩) (cmpi .sle),
    StableHlo.TRef.binary (.of main_call0_v7 : StableHlo.TRef sig ⟨S800000x1, .i1⟩) (.of main_call0_v10 : StableHlo.TRef sig ⟨S800000x1, .i1⟩) (.of main_call0_v11 : StableHlo.TRef sig ⟨S800000x1, .i1⟩) andi,
    StableHlo.TRef.nullary (.of main_call0_c_3 : StableHlo.TRef sig ⟨S_, .i1⟩) (constantI S_ 1 1#1),
    StableHlo.TRef.binary (.of main_call0_v11 : StableHlo.TRef sig ⟨S800000x1, .i1⟩) (.of main_call0_c_3 : StableHlo.TRef sig ⟨S_, .i1⟩) (.of main_call0_v12 : StableHlo.TRef sig ⟨S800000, .i1⟩) (fun x v => Host.reduce IntOp.andi x v reducesTo_S800000x1_S800000_d1 h_S_) ]

/-- Its gather, and the select on the bounds test. -/
abbrev selOps0 : List (HloOp τ sig (Elt F)) :=
  [ StableHlo.TRef.binary (.of main_arg0 : StableHlo.TRef sig ⟨S50000x128, .f32⟩) (.of main_call0_v5 : StableHlo.TRef sig ⟨S800000x1, .i32⟩) (.of main_call0_v13 : StableHlo.TRef sig ⟨S800000x128, .f32⟩) (fun x i => Host.gather gather_S50000x128_S800000x1_S800000x128_1_0_n_n_0_1_1128 x i),
    StableHlo.TRef.unary (.of main_call0_v12 : StableHlo.TRef sig ⟨S800000, .i1⟩) (.of main_call0_v14 : StableHlo.TRef sig ⟨S800000x128, .i1⟩) (broadcastInDim S800000x128 ![0] bcast_S800000_S800000x128_0),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v15 : StableHlo.TRef sig ⟨S800000x128, .f32⟩) (broadcastInDim S800000x128 ![] bcast_S_S800000x128),
    StableHlo.TRef.ternary (.of main_call0_v14 : StableHlo.TRef sig ⟨S800000x128, .i1⟩) (.of main_call0_v13 : StableHlo.TRef sig ⟨S800000x128, .f32⟩) (.of main_call0_v15 : StableHlo.TRef sig ⟨S800000x128, .f32⟩) (.of main_v4 : StableHlo.TRef sig ⟨S800000x128, .f32⟩) select ]

theorem wrapOps0_result (V : Valuation τ sig (Elt F)) :
    StableHlo.after wrapOps0 V (Proc.devRef .tc main_call0_v5) = wrapIdx (V (Proc.devRef .tc main_v1)) := by
  generalize hT : wrapIdx (V (Proc.devRef .tc main_v1)) = T
  after_results_simp
  subst hT
  rfl

section
attribute [local irreducible] Host.reduce
theorem maskOps0_result (V : Valuation τ sig (Elt F)) :
    StableHlo.after maskOps0 V (Proc.devRef .tc main_call0_v12) = boundsMask (V (Proc.devRef .tc main_call0_v5)) := by
  generalize hT : boundsMask (V (Proc.devRef .tc main_call0_v5)) = T
  after_results_simp
  subst hT
  rfl
end

theorem selOps0_result (V : Valuation τ sig (Elt F)) :
    StableHlo.after selOps0 V (Proc.devRef .tc main_v4)
      = takeSelect (F := F) (V (Proc.devRef .tc main_call0_v12)) (V (Proc.devRef .tc main_arg0)) (V (Proc.devRef .tc main_call0_v5)) := by
  generalize hT : takeSelect (F := F) (V (Proc.devRef .tc main_call0_v12)) (V (Proc.devRef .tc main_arg0)) (V (Proc.devRef .tc main_call0_v5)) = T
  after_results_simp
  subst hT
  rfl

/-- The first `take` stretch writes its result from the table and the row it is given. -/
theorem take0_result (V : Valuation τ sig (Elt F)) :
    StableHlo.after hostOps0_1 V (Proc.devRef .tc main_v4)
      = takeTerm (F := F) (V (Proc.devRef .tc main_arg0)) (V (Proc.devRef .tc main_v1)) := by
  have e : (hostOps0_1 : List (HloOp τ sig (Elt F))) = wrapOps0 ++ (maskOps0 ++ selOps0) := rfl
  have a0 : ∀ W : Valuation τ sig (Elt F),
      StableHlo.after maskOps0 W (Proc.devRef .tc main_arg0) = W (Proc.devRef .tc main_arg0) := fun W => by
    unwritten maskOps0
  have a1 : StableHlo.after wrapOps0 V (Proc.devRef .tc main_arg0) = V (Proc.devRef .tc main_arg0) := by
    unwritten wrapOps0
  have i0 : ∀ W : Valuation τ sig (Elt F),
      StableHlo.after maskOps0 W (Proc.devRef .tc main_call0_v5) = W (Proc.devRef .tc main_call0_v5) := fun W => by
    unwritten maskOps0
  rw [e, StableHlo.after_append, StableHlo.after_append, selOps0_result, maskOps0_result, a0, a1, i0,
    wrapOps0_result]
  rfl

/-! ### The second `take`, in three pieces: the wrap, the bounds test, the gather and the select -/

/-- The second `take`'s wrap of negative indices, laid as a column. -/
abbrev wrapOps1 : List (HloOp τ sig (Elt F)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S800000, .i32⟩) (broadcastInDim S800000 ![] bcast_S_S800000),
    StableHlo.TRef.binary (.of main_v3 : StableHlo.TRef sig ⟨S800000, .i32⟩) (.of main_call1_v0 : StableHlo.TRef sig ⟨S800000, .i32⟩) (.of main_call1_v1 : StableHlo.TRef sig ⟨S800000, .i1⟩) (cmpi .slt),
    StableHlo.TRef.nullary (.of main_call1_c_0 : StableHlo.TRef sig ⟨S_, .i32⟩) (constantI S_ 32 50000#32),
    StableHlo.TRef.unary (.of main_call1_c_0 : StableHlo.TRef sig ⟨S_, .i32⟩) (.of main_call1_v2 : StableHlo.TRef sig ⟨S800000, .i32⟩) (broadcastInDim S800000 ![] bcast_S_S800000),
    StableHlo.TRef.binary (.of main_v3 : StableHlo.TRef sig ⟨S800000, .i32⟩) (.of main_call1_v2 : StableHlo.TRef sig ⟨S800000, .i32⟩) (.of main_call1_v3 : StableHlo.TRef sig ⟨S800000, .i32⟩) addi,
    StableHlo.TRef.ternary (.of main_call1_v1 : StableHlo.TRef sig ⟨S800000, .i1⟩) (.of main_call1_v3 : StableHlo.TRef sig ⟨S800000, .i32⟩) (.of main_v3 : StableHlo.TRef sig ⟨S800000, .i32⟩) (.of main_call1_v4 : StableHlo.TRef sig ⟨S800000, .i32⟩) select,
    StableHlo.TRef.unary main_call1_call0.v0 (.of main_call1_v5 : StableHlo.TRef sig ⟨S800000x1, .i32⟩) (broadcastInDim S800000x1 ![0] bcast_S800000_S800000x1_0) ]

/-- Its bounds test. -/
abbrev maskOps1 : List (HloOp τ sig (Elt F)) :=
  [ StableHlo.TRef.nullary (.of main_call1_c_1 : StableHlo.TRef sig ⟨S1, .i32⟩) (constantI S1 32 49999#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S800000x1, .i32⟩) (broadcastInDim S800000x1 ![] bcast_S_S800000x1),
    StableHlo.TRef.binary (.of main_call1_v5 : StableHlo.TRef sig ⟨S800000x1, .i32⟩) (.of main_call1_v6 : StableHlo.TRef sig ⟨S800000x1, .i32⟩) (.of main_call1_v7 : StableHlo.TRef sig ⟨S800000x1, .i1⟩) (cmpi .sge),
    StableHlo.TRef.unary (.of main_call1_c_1 : StableHlo.TRef sig ⟨S1, .i32⟩) (.of main_call1_v8 : StableHlo.TRef sig ⟨S1x1, .i32⟩) (broadcastInDim S1x1 ![1] bcast_S1_S1x1_1),
    StableHlo.TRef.unary (.of main_call1_v8 : StableHlo.TRef sig ⟨S1x1, .i32⟩) (.of main_call1_v9 : StableHlo.TRef sig ⟨S800000x1, .i32⟩) (broadcastInDim S800000x1 ![0, 1] bcast_S1x1_S800000x1_0_1),
    StableHlo.TRef.binary (.of main_call1_v5 : StableHlo.TRef sig ⟨S800000x1, .i32⟩) (.of main_call1_v9 : StableHlo.TRef sig ⟨S800000x1, .i32⟩) (.of main_call1_v10 : StableHlo.TRef sig ⟨S800000x1, .i1⟩) (cmpi .sle),
    StableHlo.TRef.binary (.of main_call1_v7 : StableHlo.TRef sig ⟨S800000x1, .i1⟩) (.of main_call1_v10 : StableHlo.TRef sig ⟨S800000x1, .i1⟩) (.of main_call1_v11 : StableHlo.TRef sig ⟨S800000x1, .i1⟩) andi,
    StableHlo.TRef.nullary (.of main_call1_c_3 : StableHlo.TRef sig ⟨S_, .i1⟩) (constantI S_ 1 1#1),
    StableHlo.TRef.binary (.of main_call1_v11 : StableHlo.TRef sig ⟨S800000x1, .i1⟩) (.of main_call1_c_3 : StableHlo.TRef sig ⟨S_, .i1⟩) (.of main_call1_v12 : StableHlo.TRef sig ⟨S800000, .i1⟩) (fun x v => Host.reduce IntOp.andi x v reducesTo_S800000x1_S800000_d1 h_S_) ]

/-- Its gather, and the select on the bounds test. -/
abbrev selOps1 : List (HloOp τ sig (Elt F)) :=
  [ StableHlo.TRef.binary (.of main_arg0 : StableHlo.TRef sig ⟨S50000x128, .f32⟩) (.of main_call1_v5 : StableHlo.TRef sig ⟨S800000x1, .i32⟩) (.of main_call1_v13 : StableHlo.TRef sig ⟨S800000x128, .f32⟩) (fun x i => Host.gather gather_S50000x128_S800000x1_S800000x128_1_0_n_n_0_1_1128 x i),
    StableHlo.TRef.unary (.of main_call1_v12 : StableHlo.TRef sig ⟨S800000, .i1⟩) (.of main_call1_v14 : StableHlo.TRef sig ⟨S800000x128, .i1⟩) (broadcastInDim S800000x128 ![0] bcast_S800000_S800000x128_0),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v15 : StableHlo.TRef sig ⟨S800000x128, .f32⟩) (broadcastInDim S800000x128 ![] bcast_S_S800000x128),
    StableHlo.TRef.ternary (.of main_call1_v14 : StableHlo.TRef sig ⟨S800000x128, .i1⟩) (.of main_call1_v13 : StableHlo.TRef sig ⟨S800000x128, .f32⟩) (.of main_call1_v15 : StableHlo.TRef sig ⟨S800000x128, .f32⟩) (.of main_v5 : StableHlo.TRef sig ⟨S800000x128, .f32⟩) select ]

theorem wrapOps1_result (V : Valuation τ sig (Elt F)) :
    StableHlo.after wrapOps1 V (Proc.devRef .tc main_call1_v5) = wrapIdx (V (Proc.devRef .tc main_v3)) := by
  generalize hT : wrapIdx (V (Proc.devRef .tc main_v3)) = T
  after_results_simp
  subst hT
  rfl

section
attribute [local irreducible] Host.reduce
theorem maskOps1_result (V : Valuation τ sig (Elt F)) :
    StableHlo.after maskOps1 V (Proc.devRef .tc main_call1_v12) = boundsMask (V (Proc.devRef .tc main_call1_v5)) := by
  generalize hT : boundsMask (V (Proc.devRef .tc main_call1_v5)) = T
  after_results_simp
  subst hT
  rfl
end

theorem selOps1_result (V : Valuation τ sig (Elt F)) :
    StableHlo.after selOps1 V (Proc.devRef .tc main_v5)
      = takeSelect (F := F) (V (Proc.devRef .tc main_call1_v12)) (V (Proc.devRef .tc main_arg0)) (V (Proc.devRef .tc main_call1_v5)) := by
  generalize hT : takeSelect (F := F) (V (Proc.devRef .tc main_call1_v12)) (V (Proc.devRef .tc main_arg0)) (V (Proc.devRef .tc main_call1_v5)) = T
  after_results_simp
  subst hT
  rfl

/-- The second `take` stretch writes its result from the table and the row it is given. -/
theorem take1_result (V : Valuation τ sig (Elt F)) :
    StableHlo.after hostOps0_2 V (Proc.devRef .tc main_v5)
      = takeTerm (F := F) (V (Proc.devRef .tc main_arg0)) (V (Proc.devRef .tc main_v3)) := by
  have e : (hostOps0_2 : List (HloOp τ sig (Elt F))) = wrapOps1 ++ (maskOps1 ++ selOps1) := rfl
  have a0 : ∀ W : Valuation τ sig (Elt F),
      StableHlo.after maskOps1 W (Proc.devRef .tc main_arg0) = W (Proc.devRef .tc main_arg0) := fun W => by
    unwritten maskOps1
  have a1 : StableHlo.after wrapOps1 V (Proc.devRef .tc main_arg0) = V (Proc.devRef .tc main_arg0) := by
    unwritten wrapOps1
  have i0 : ∀ W : Valuation τ sig (Elt F),
      StableHlo.after maskOps1 W (Proc.devRef .tc main_call1_v5) = W (Proc.devRef .tc main_call1_v5) := fun W => by
    unwritten maskOps1
  rw [e, StableHlo.after_append, StableHlo.after_append, selOps1_result, maskOps1_result, a0, a1, i0,
    wrapOps1_result]
  rfl

/-- The stretch between the regions writes the scatter-add, into zeros at the destination column, of the messages. -/
theorem scatter_result (V : Valuation τ sig (Elt F)) :
    StableHlo.after hostOps1 V (Proc.devRef .tc main_v9)
      = Host.scatterAdd (F := F) (φ := .f32) scatter_S50000x128_S800000x1_S800000x128_1_0_0_1
          (broadcastInDim S50000x128 ![] bcast_S_S50000x128 (constant (F := F) S_ .f32 0x00000000#32))
          (broadcastInDim S800000x1 ![0] bcast_S800000_S800000x1_0 (V (Proc.devRef .tc main_v3)))
          (V (Proc.devRef .tc main_v6)) := by
  after_results

/-- After the first stretch the source row is row 0 of the edge-index argument. -/
theorem W1_v1 (c : Dev nD) :
    W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  after_results
  rfl

/-- And the destination row is row 1. -/
theorem W1_v3 (c : Dev nD) :
    W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results
  rfl

/-- The rows of an edge-index array of node numbers hold node numbers. -/
theorem row0_range (x1 : IVec S2x800000 32) (hr : InRange x1) (j : S800000.Idx) :
    0 ≤ (Cert.ReferenceIdeal.Read.val_main_v1 (F := Ideal) x1 j).toInt ∧ (Cert.ReferenceIdeal.Read.val_main_v1 (F := Ideal) x1 j).toInt < 50000 := by
  rw [Cert.ReferenceIdeal.Read.val_main_v1_apply, Cert.ReferenceIdeal.Read.val_main_v0_apply]; exact hr _
theorem row1_range (x1 : IVec S2x800000 32) (hr : InRange x1) (j : S800000.Idx) :
    0 ≤ (Cert.ReferenceIdeal.Read.val_main_v3 (F := Ideal) x1 j).toInt ∧ (Cert.ReferenceIdeal.Read.val_main_v3 (F := Ideal) x1 j).toInt < 50000 := by
  rw [Cert.ReferenceIdeal.Read.val_main_v3_apply, Cert.ReferenceIdeal.Read.val_main_v2_apply]; exact hr _

theorem V3_v4 (c : Dev nD) (hr : InRange (m ((c : Thread nD τ).loc main_arg1))) :
    V3 m ρ c main_v4 = Cert.ReferenceIdeal.Read.val_main_v10 (F := Ideal) (m ((c : Thread nD τ).loc main_arg0)) (m ((c : Thread nD τ).loc main_arg1)) := by
  have h3 : W3 m ρ c (Proc.devRef .tc main_v4) = W2 m ρ c (Proc.devRef .tc main_v4) := by unwritten hostOps0_2
  have h2 : W2 m ρ c (Proc.devRef .tc main_v4)
      = takeTerm (F := Ideal) (W1 m ρ c (Proc.devRef .tc main_arg0)) (W1 m ρ c (Proc.devRef .tc main_v1)) := take0_result (W1 m ρ c)
  have ha : W1 m ρ c (Proc.devRef .tc main_arg0) = m ((c : Thread nD τ).loc main_arg0) :=
    calc W1 m ρ c (Proc.devRef .tc main_arg0)
      _ = W0 m ρ c (Proc.devRef .tc main_arg0) := by unwritten hostOps0
      _ = m ((c : Thread nD τ).loc main_arg0) := rfl
  refine h3.trans (h2.trans ?_)
  rw [ha, W1_v1 m ρ c, takeTerm_eq _ _ (row0_range _ hr)]
  unfold Cert.ReferenceIdeal.Read.val_main_v10 Cert.ReferenceIdeal.Read.val_main_v9 Cert.ReferenceIdeal.Read.val_main_v8 Cert.ReferenceIdeal.Read.val_main_v7 Cert.ReferenceIdeal.Read.val_main_v6 Cert.ReferenceIdeal.Read.val_main_v5
    Cert.ReferenceIdeal.Read.val_main_v4 Cert.ReferenceIdeal.Read.val_main_c Cert.ReferenceIdeal.Read.val_main_c_0 wrapIdx
  rfl

theorem V3_v5 (c : Dev nD) (hr : InRange (m ((c : Thread nD τ).loc main_arg1))) :
    V3 m ρ c main_v5 = Cert.ReferenceIdeal.Read.val_main_v17 (F := Ideal) (m ((c : Thread nD τ).loc main_arg0)) (m ((c : Thread nD τ).loc main_arg1)) := by
  have h3 : W3 m ρ c (Proc.devRef .tc main_v5)
      = takeTerm (F := Ideal) (W2 m ρ c (Proc.devRef .tc main_arg0)) (W2 m ρ c (Proc.devRef .tc main_v3)) := take1_result (W2 m ρ c)
  have ha : W2 m ρ c (Proc.devRef .tc main_arg0) = m ((c : Thread nD τ).loc main_arg0) :=
    calc W2 m ρ c (Proc.devRef .tc main_arg0)
      _ = W1 m ρ c (Proc.devRef .tc main_arg0) := by unwritten hostOps0_1
      _ = W0 m ρ c (Proc.devRef .tc main_arg0) := by unwritten hostOps0
      _ = m ((c : Thread nD τ).loc main_arg0) := rfl
  have hv : W2 m ρ c (Proc.devRef .tc main_v3) = W1 m ρ c (Proc.devRef .tc main_v3) := by unwritten hostOps0_1
  refine h3.trans ?_
  rw [ha, hv, W1_v3 m ρ c, takeTerm_eq _ _ (row1_range _ hr)]
  unfold Cert.ReferenceIdeal.Read.val_main_v17 Cert.ReferenceIdeal.Read.val_main_v16 Cert.ReferenceIdeal.Read.val_main_v15 Cert.ReferenceIdeal.Read.val_main_v14 Cert.ReferenceIdeal.Read.val_main_v13 Cert.ReferenceIdeal.Read.val_main_v12
    Cert.ReferenceIdeal.Read.val_main_v11 Cert.ReferenceIdeal.Read.val_main_c_1 Cert.ReferenceIdeal.Read.val_main_c_2 wrapIdx
  rfl

theorem V3_arg2 (c : Dev nD) : V3 m ρ c main_arg2 = m ((c : Thread nD τ).loc main_arg2) := by
  entry_unwritten m ρ c main_arg2
theorem V3_arg3 (c : Dev nD) : V3 m ρ c main_arg3 = m ((c : Thread nD τ).loc main_arg3) := by
  entry_unwritten m ρ c main_arg3
theorem V3_arg4 (c : Dev nD) : V3 m ρ c main_arg4 = m ((c : Thread nD τ).loc main_arg4) := by
  entry_unwritten m ρ c main_arg4
theorem V3_arg5 (c : Dev nD) : V3 m ρ c main_arg5 = m ((c : Thread nD τ).loc main_arg5) := by
  entry_unwritten m ρ c main_arg5
theorem V3_arg6 (c : Dev nD) : V3 m ρ c main_arg6 = m ((c : Thread nD τ).loc main_arg6) := by
  entry_unwritten m ρ c main_arg6

theorem V5_v9 (c : Dev nD) :
    (V5 m ρ c main_v9 : FVec Ideal S50000x128 .f32)
      = Host.scatterAdd (F := Ideal) (φ := .f32) Cert.ReferenceIdeal.scatter_S50000x128_S800000x1_S800000x128_1_0_0_1
          (Cert.ReferenceIdeal.Read.val_main_v37 (F := Ideal)) (Cert.ReferenceIdeal.Read.val_main_v38 (F := Ideal) (m ((c : Thread nD τ).loc main_arg1)))
          (W4 m ρ c (Proc.devRef .tc main_v6) : FVec Ideal S800000x128 .f32) := by
  have h5 := scatter_result (W4 m ρ c)
  have h4 : W4 m ρ c (Proc.devRef .tc main_v3) = W3 m ρ c (Proc.devRef .tc main_v3) :=
    W4_of_ne m ρ c main_v3 (by decide)
  have h3 : W3 m ρ c (Proc.devRef .tc main_v3) = W2 m ρ c (Proc.devRef .tc main_v3) := by unwritten hostOps0_2
  have h2 : W2 m ρ c (Proc.devRef .tc main_v3) = W1 m ρ c (Proc.devRef .tc main_v3) := by unwritten hostOps0_1
  rw [h4, h3, h2, W1_v3 m ρ c] at h5
  refine h5.trans ?_
  unfold Cert.ReferenceIdeal.Read.val_main_v37 Cert.ReferenceIdeal.Read.val_main_v38 Cert.ReferenceIdeal.Read.val_main_cst_4
  rfl

theorem V5_arg7 (c : Dev nD) : V5 m ρ c main_arg7 = m ((c : Thread nD τ).loc main_arg7) := by
  have h5 : W5 m ρ c (Proc.devRef .tc main_arg7) = W4 m ρ c (Proc.devRef .tc main_arg7) := by unwritten hostOps1
  have h4 : W4 m ρ c (Proc.devRef .tc main_arg7) = W3 m ρ c (Proc.devRef .tc main_arg7) :=
    W4_of_ne m ρ c main_arg7 (by decide)
  have h3 : W3 m ρ c (Proc.devRef .tc main_arg7) = m ((c : Thread nD τ).loc main_arg7) := by
    entry_unwritten m ρ c main_arg7
  exact h5.trans (h4.trans h3)
theorem V5_arg8 (c : Dev nD) : V5 m ρ c main_arg8 = m ((c : Thread nD τ).loc main_arg8) := by
  have h5 : W5 m ρ c (Proc.devRef .tc main_arg8) = W4 m ρ c (Proc.devRef .tc main_arg8) := by unwritten hostOps1
  have h4 : W4 m ρ c (Proc.devRef .tc main_arg8) = W3 m ρ c (Proc.devRef .tc main_arg8) :=
    W4_of_ne m ρ c main_arg8 (by decide)
  have h3 : W3 m ρ c (Proc.devRef .tc main_arg8) = m ((c : Thread nD τ).loc main_arg8) := by
    entry_unwritten m ρ c main_arg8
  exact h5.trans (h4.trans h3)

end Cert.KernelIdeal.HostK

end
-- ==== Proof.KernelValue.lean ====
/-
  The idealized kernel program's result as one function of its arguments: the aggregated messages, normalised.
  The message region's array is `msgArr` of the gathered node rows (the bounds tests of the two `take`s pass when
  every edge index is a node number); the host scatter-adds it into zeros by destination; the normalising region's
  array is `lnArr` of that.  The run is the launch of the program's segments with the result buffer named.
-/
import proofs.«416091_j5514738008949_1_alg».proof.Proof.KernelRun
import proofs.«416091_j5514738008949_1_alg».proof.Proof.Region0Value
import proofs.«416091_j5514738008949_1_alg».proof.Proof.Region1Value
import proofs.«416091_j5514738008949_1_alg».proof.Proof.HostK

set_option maxRecDepth 16384

noncomputable section

namespace Cert.KernelIdeal.Value

open Cert.KernelIdeal Cert.KernelIdeal.Gen Idealize.ShloMosaic Idealize.ShloMosaic.TcCoe Idealize.SL.Sem
open Cert.KernelIdeal.HostK

/-- The program's result as a function of the nine arguments. -/
def result (x0 : FVec Ideal S50000x128 .f32) (x1 : IVec S2x800000 32) (x2 : FVec Ideal S800000x64 .f32)
    (x3 : FVec Ideal S320x1 .f32) (x4 : FVec Ideal S1 .f32) (x5 : FVec Ideal S192x128 .f32) (x6 x7 x8 : FVec Ideal S128 .f32) :
    FVec Ideal S50000x128 .f32 :=
  Cert.Spec.lnArr
    (Host.scatterAdd (F := Ideal) (φ := .f32) Cert.ReferenceIdeal.scatter_S50000x128_S800000x1_S800000x128_1_0_0_1
      (Cert.ReferenceIdeal.Read.val_main_v37 (F := Ideal)) (Cert.ReferenceIdeal.Read.val_main_v38 (F := Ideal) x1)
      (Cert.Spec.msgArr (Cert.ReferenceIdeal.Read.val_main_v10 (F := Ideal) x0 x1) (Cert.ReferenceIdeal.Read.val_main_v17 (F := Ideal) x0 x1) x2 x3 x4 x5 x6))
    x7 x8

variable (m : (ℓ : Loc nD τ sig) → Buf (Elt Ideal) ℓ) (ρ : Dev nD → PrngReg)

/-- The last boundary's contents at the result buffer. -/
theorem W6_v10 (c : Dev nD) (hr : InRange (m ((c : Thread nD τ).loc main_arg1))) :
    W6 m ρ c (Proc.devRef .tc main_v10) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have h1 : W6 m ρ c (Proc.devRef .tc main_v10) = (dat1 (V5 m ρ) c).arrAt 3 cfg1.N := W6_arr m ρ c 3
  have h0 : W4 m ρ c (Proc.devRef .tc main_v6) = (dat0 (V3 m ρ) c).arrAt 7 cfg0.N := W4_arr m ρ c 7
  rw [h1, Cert.KernelIdeal.Region1.final (V5 m ρ) c, V5_v9 m ρ c, V5_arg7 m ρ c, V5_arg8 m ρ c, h0,
    Cert.KernelIdeal.Region0.final (V3 m ρ) c, V3_v4 m ρ c hr, V3_v5 m ρ c hr, V3_arg2 m ρ c, V3_arg3 m ρ c, V3_arg4 m ρ c,
    V3_arg5 m ρ c, V3_arg6 m ρ c]
  unfold result
  rfl

/-- Every weakly fair execution of the program ends with the result buffer at `result` of the arguments, which are
    left as launched. -/
theorem run (hr : ∀ c : Dev nD, InRange (m ((c : Thread nD τ).loc main_arg1))) :
    θ_run defs (onTc (τ := τ) (main (F := Ideal))) ⟨m, fun _ => 0, ρ⟩ (fun r => ∀ c : Dev nD,
      r.2.mem ((c.tc : Thread nD τ).loc main_v10) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (W6_v10 m ρ c (hr c)), (h c).2⟩) (run_named m ρ)

end Cert.KernelIdeal.Value

end
-- ==== Proof.RefLN.lean ====
/-
  The reference's normalisation stages read at an index: from the aggregated array on, the reference's result is
  `lnArr` of that array.
-/
import proofs.«416091_j5514738008949_1_alg».proof.Proof.Gen.ReferenceIdeal.Read
import proofs.«416091_j5514738008949_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- A sum that starts from the zero word is the sum. -/
theorem ln_zero_add (s : EReal) : Ideal.ofBits .f32 0x00000000#32 + s = s := by
  rw [Ideal.ofBits_zero_f32, zero_add]

/-- The column of row means, read at row `r`: the mean of row `r` of the aggregated array. -/
theorem ln_mean_at (x0 : FVec Ideal S50000x128 .f32) (x1 : IVec S2x800000 32) (x2 : FVec Ideal S800000x64 .f32) (x3 : FVec Ideal S320x1 .f32) (x4 : FVec Ideal S1 .f32) (x5 : FVec Ideal S192x128 .f32) (x6 : FVec Ideal S128 .f32) (r : Fin 50000) :
    val_main_v43 (F := Ideal) x0 x1 x2 x3 x4 x5 x6 (ix2 r (0 : Fin 1))
      = Cert.Spec.rowMean (fun k => val_main_v39 (F := Ideal) x0 x1 x2 x3 x4 x5 x6 (ix2 r k)) := by
  have h : ∀ k : Fin 128, idx_main_v40 (idx_main_v41 (ix2 r (0 : Fin 1))) k = ix2 r k :=
    fun k => funext fun a => Fin.ext (by match a with | ⟨0, _⟩ => rfl | ⟨1, _⟩ => rfl)
  rw [val_main_v43_apply, val_main_v42_apply, val_main_v41_apply, val_main_v40_apply, val_main_cst_5_apply,
    val_main_cst_6_apply]
  generalize val_main_v39 (F := Ideal) x0 x1 x2 x3 x4 x5 x6 = A
  simp only [h, Ideal.hostDivf_def, Ideal.ofBits_def, ln_zero_add]
  rfl

/-- The squared deviation from the row mean, read at entry `k` of row `r`. -/
theorem ln_sqdev_at (x0 : FVec Ideal S50000x128 .f32) (x1 : IVec S2x800000 32) (x2 : FVec Ideal S800000x64 .f32) (x3 : FVec Ideal S320x1 .f32) (x4 : FVec Ideal S1 .f32) (x5 : FVec Ideal S192x128 .f32) (x6 : FVec Ideal S128 .f32) (r : Fin 50000) (k : Fin 128) :
    val_main_v46 (F := Ideal) x0 x1 x2 x3 x4 x5 x6 (ix2 r k)
      = (val_main_v39 (F := Ideal) x0 x1 x2 x3 x4 x5 x6 (ix2 r k) - Cert.Spec.rowMean (fun k => val_main_v39 (F := Ideal) x0 x1 x2 x3 x4 x5 x6 (ix2 r k)))
        * (val_main_v39 (F := Ideal) x0 x1 x2 x3 x4 x5 x6 (ix2 r k) - Cert.Spec.rowMean (fun k => val_main_v39 (F := Ideal) x0 x1 x2 x3 x4 x5 x6 (ix2 r k))) := by
  have h : idx_main_v44 (ix2 r k) = ix2 r (0 : Fin 1) :=
    funext fun a => Fin.ext (by match a with | ⟨0, _⟩ => rfl | ⟨1, _⟩ => rfl)
  rw [val_main_v46_apply, val_main_v45_apply, val_main_v44_apply, h, ln_mean_at]
  rfl

/-- The column of row variances, read at row `r`: the variance of row `r` of the aggregated array. -/
theorem ln_var_at (x0 : FVec Ideal S50000x128 .f32) (x1 : IVec S2x800000 32) (x2 : FVec Ideal S800000x64 .f32) (x3 : FVec Ideal S320x1 .f32) (x4 : FVec Ideal S1 .f32) (x5 : FVec Ideal S192x128 .f32) (x6 : FVec Ideal S128 .f32) (r : Fin 50000) :
    val_main_v50 (F := Ideal) x0 x1 x2 x3 x4 x5 x6 (ix2 r (0 : Fin 1))
      = Cert.Spec.rowVar (fun k => val_main_v39 (F := Ideal) x0 x1 x2 x3 x4 x5 x6 (ix2 r k)) := by
  have h : ∀ k : Fin 128, idx_main_v47 (idx_main_v48 (ix2 r (0 : Fin 1))) k = ix2 r k :=
    fun k => funext fun a => Fin.ext (by match a with | ⟨0, _⟩ => rfl | ⟨1, _⟩ => rfl)
  rw [val_main_v50_apply, val_main_v49_apply, val_main_v48_apply, val_main_v47_apply, val_main_cst_7_apply,
    val_main_cst_8_apply]
  simp only [h, ln_sqdev_at, Ideal.hostDivf_def, Ideal.ofBits_def, ln_zero_add]
  rfl

theorem ref_ln (x0 : FVec Ideal S50000x128 .f32) (x1 : IVec S2x800000 32) (x2 : FVec Ideal S800000x64 .f32) (x3 : FVec Ideal S320x1 .f32) (x4 : FVec Ideal S1 .f32) (x5 : FVec Ideal S192x128 .f32) (x6 : FVec Ideal S128 .f32) (x7 x8 : FVec Ideal S128 .f32) :
    val_main_v64 (F := Ideal) x0 x1 x2 x3 x4 x5 x6 x7 x8
      = Cert.Spec.lnArr (val_main_v39 (F := Ideal) x0 x1 x2 x3 x4 x5 x6) x7 x8 := by
  funext i
  obtain ⟨r, q, rfl⟩ : ∃ (r : Fin 50000) (q : Fin 128), i = ValueIdx.ix2 r q := ⟨i 0, i 1, ValueIdx.eq_ix2 i⟩
  have h51 : idx_main_v51 (ix2 r q) = ix2 r (0 : Fin 1) :=
    funext fun a => Fin.ext (by match a with | ⟨0, _⟩ => rfl | ⟨1, _⟩ => rfl)
  have h56 : idx_main_v56 (ix2 r q) = ix2 r (0 : Fin 1) :=
    funext fun a => Fin.ext (by match a with | ⟨0, _⟩ => rfl | ⟨1, _⟩ => rfl)
  have h58 : idx_main_v58 (idx_main_v59 (ix2 r q)) = ix1 q :=
    funext fun a => Fin.ext (by match a with | ⟨0, _⟩ => rfl)
  have h61 : idx_main_v61 (idx_main_v62 (ix2 r q)) = ix1 q :=
    funext fun a => Fin.ext (by match a with | ⟨0, _⟩ => rfl)
  rw [val_main_v64_apply, val_main_v63_apply, val_main_v62_apply, val_main_v61_apply, val_main_v60_apply,
    val_main_v59_apply, val_main_v58_apply, val_main_v57_apply, val_main_v56_apply, val_main_v55_apply,
    val_main_v54_apply, val_main_v53_apply, val_main_v52_apply, val_main_v51_apply, val_main_cst_9_apply,
    val_main_call1_v0_apply, val_main_call1_cst_apply, h51, h56, h58, h61, ln_mean_at, ln_var_at]
  generalize val_main_v39 (F := Ideal) x0 x1 x2 x3 x4 x5 x6 = A
  simp only [Ideal.maximumf_def, Ideal.addf_def, Ideal.mulf_def, Ideal.subf_def, Ideal.hostUnary_rsqrt_def,
    Ideal.ofBits_def]
  rfl

end Cert.ReferenceIdeal.RefValue

end
-- ==== Proof.RefMsg.lean ====
/-
  The reference's message stages read at an index: the array the scatter-add consumes is `msgArr` of the two
  gathered node arrays, the edge features and the weights.
-/
import proofs.«416091_j5514738008949_1_alg».proof.Proof.Gen.ReferenceIdeal.Read
import proofs.«416091_j5514738008949_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The three-piece join read at row `e`, column `k`: the piece whose span holds `k`. -/
theorem cat3_read (hs hd : S800000x128.Idx → EReal) (ef : S800000x64.Idx → EReal) (e : Fin 800000) (k : Fin 320) :
    concatenate S800000x320 1 [⟨S800000x128, hs⟩, ⟨S800000x128, hd⟩, ⟨S800000x64, ef⟩]
        concatenates_S800000x128_S800000x128_S800000x64_S800000x320_d1 (ix2 e k)
      = Cert.Spec.cat3 (fun k => hs (ix2 e k)) (fun k => hd (ix2 e k)) (fun k => ef (ix2 e k)) k := by
  unfold Cert.Spec.cat3
  split_ifs with h1 h2
  · exact concatenate_apply_piece (1 : Fin S800000x320.rank) _ _ (ix2 e k) 0 (by show (0 : Nat) < 3; omega) S800000x128 hs rfl rfl 0 rfl
      (ix2 e (⟨k.val, h1⟩ : Fin 128)) (fun b hb => by
        match b with
        | ⟨0, _⟩ => rfl
        | ⟨1, _⟩ => exact absurd rfl hb) (by show 0 + k.val = k.val; omega)
  · exact concatenate_apply_piece (1 : Fin S800000x320.rank) _ _ (ix2 e k) 1 (by show (1 : Nat) < 3; omega) S800000x128 hd rfl rfl 128 rfl
      (ix2 e (⟨k.val - 128, by omega⟩ : Fin 128)) (fun b hb => by
        match b with
        | ⟨0, _⟩ => rfl
        | ⟨1, _⟩ => exact absurd rfl hb) (by show 128 + (k.val - 128) = k.val; omega)
  · exact concatenate_apply_piece (1 : Fin S800000x320.rank) _ _ (ix2 e k) 2 (by show (2 : Nat) < 3; omega) S800000x64 ef rfl rfl 256 rfl
      (ix2 e (⟨k.val - 256, by have := k.isLt; omega⟩ : Fin 64)) (fun b hb => by
        match b with
        | ⟨0, _⟩ => rfl
        | ⟨1, _⟩ => exact absurd rfl hb) (by show 256 + (k.val - 256) = k.val; omega)

/-- The two-piece join read at row `e`, column `k`. -/
theorem cat2_read (hs : S800000x128.Idx → EReal) (ef : S800000x64.Idx → EReal) (e : Fin 800000) (k : Fin 192) :
    concatenate S800000x192 1 [⟨S800000x128, hs⟩, ⟨S800000x64, ef⟩]
        concatenates_S800000x128_S800000x64_S800000x192_d1 (ix2 e k)
      = Cert.Spec.cat2 (fun k => hs (ix2 e k)) (fun k => ef (ix2 e k)) k := by
  unfold Cert.Spec.cat2
  split_ifs with h1
  · exact concatenate_apply_piece (1 : Fin S800000x192.rank) _ _ (ix2 e k) 0 (by show (0 : Nat) < 2; omega) S800000x128 hs rfl rfl 0 rfl
      (ix2 e (⟨k.val, h1⟩ : Fin 128)) (fun b hb => by
        match b with
        | ⟨0, _⟩ => rfl
        | ⟨1, _⟩ => exact absurd rfl hb) (by show 0 + k.val = k.val; omega)
  · exact concatenate_apply_piece (1 : Fin S800000x192.rank) _ _ (ix2 e k) 1 (by show (1 : Nat) < 2; omega) S800000x64 ef rfl rfl 128 rfl
      (ix2 e (⟨k.val - 128, by have := k.isLt; omega⟩ : Fin 64)) (fun b hb => by
        match b with
        | ⟨0, _⟩ => rfl
        | ⟨1, _⟩ => exact absurd rfl hb) (by show 128 + (k.val - 128) = k.val; omega)

theorem ref_msg (x0 : FVec Ideal S50000x128 .f32) (x1 : IVec S2x800000 32) (x2 : FVec Ideal S800000x64 .f32) (x3 : FVec Ideal S320x1 .f32) (x4 : FVec Ideal S1 .f32) (x5 : FVec Ideal S192x128 .f32) (x6 : FVec Ideal S128 .f32) :
    val_main_v36 (F := Ideal) x0 x1 x2 x3 x4 x5 x6
      = Cert.Spec.msgArr (val_main_v10 (F := Ideal) x0 x1) (val_main_v17 (F := Ideal) x0 x1) x2 x3 x4 x5 x6 := by
  funext i
  obtain ⟨e, q, rfl⟩ : ∃ (e : Fin 800000) (q : Fin 128), i = ValueIdx.ix2 e q := ⟨i 0, i 1, ValueIdx.eq_ix2 i⟩
  rw [val_main_v36_apply, val_main_v35_apply, val_main_v34_apply, val_main_v33_apply, val_main_v32_apply,
    val_main_v31_apply, val_main_v30_apply, val_main_v28_apply, val_main_v27_apply, val_main_v26_apply,
    val_main_v25_apply, val_main_v24_apply, val_main_v23_apply, val_main_v22_apply, val_main_v21_apply,
    val_main_v20_apply, val_main_v19_apply, val_main_cst_apply, val_main_cst_3_apply, val_main_call0_v0_apply,
    val_main_call0_cst_apply]
  have e1 : ∀ k : Fin 320, lidx_main_v19 (idx_main_v35 (ix2 e q)) k = ix2 e k := fun k =>
    funext fun a => Fin.ext (by match a with | ⟨0, _⟩ => rfl | ⟨1, _⟩ => rfl)
  have e2 : ∀ k : Fin 320, ridx_main_v19 (idx_main_v35 (ix2 e q)) k = ix2 k (0 : Fin 1) := fun k =>
    funext fun a => Fin.ext (by match a with | ⟨0, _⟩ => rfl | ⟨1, _⟩ => rfl)
  have e3 : idx_main_v20 (idx_main_v21 (idx_main_v35 (ix2 e q))) = ix1 (0 : Fin 1) :=
    funext fun a => Fin.ext (by match a with | ⟨0, _⟩ => rfl)
  have e4 : ∀ k : Fin 192, lidx_main_v30 (ix2 e q) k = ix2 e k := fun k =>
    funext fun a => Fin.ext (by match a with | ⟨0, _⟩ => rfl | ⟨1, _⟩ => rfl)
  have e5 : ∀ k : Fin 192, ridx_main_v30 (ix2 e q) k = ix2 k q := fun k =>
    funext fun a => Fin.ext (by match a with | ⟨0, _⟩ => rfl | ⟨1, _⟩ => rfl)
  have e6 : idx_main_v31 (idx_main_v32 (ix2 e q)) = ix1 q :=
    funext fun a => Fin.ext (by match a with | ⟨0, _⟩ => rfl)
  simp only [e1, e2, e3, e4, e5, e6]
  unfold val_main_v18 val_main_v29
  generalize val_main_v10 (F := Ideal) x0 x1 = hs
  generalize val_main_v17 (F := Ideal) x0 x1 = hd
  simp only [cat3_read, cat2_read]
  have h1 : Ideal.ofBits .f32 0x3F800000#32 = 1 := IdealRules.sign_bit.ideal_onePat .f32
  simp only [Ideal.ofBits_def, Ideal.hostDivf_def, Ideal.hostUnary_exp_def, Ideal.hostNegf_def, Ideal.negf_def,
    Ideal.addf_def, Ideal.mulf_def, Ideal.maximumf_def, h1]
  rfl

end Cert.ReferenceIdeal.RefValue

end
-- ==== Proof.PreIdx.lean ====
/-
  What the precondition says of the edge indices: every entry of `edge_index` is a node number, 0 ≤ · < 50000.
-/
import proofs.«416091_j5514738008949_1_alg».proof.Pre_finite_inputs
import Idealize.ShloMosaic.Lib.ReduceAll
import Idealize.ShloMosaic.Lib.StableHlo.Predicate
import Idealize.ShloMosaic.PureOps.Ideal

noncomputable section

namespace Cert.Pre_finite_inputs.Decode

open Cert.Pre_finite_inputs Idealize.ShloMosaic

theorem idx_in_range [Cert.Pre_finite_inputs.Facts] (x0 : FVec Ideal S50000x128 .f32) (x1 : IVec S2x800000 32) (x2 : FVec Ideal S800000x64 .f32)
    (x3 : FVec Ideal S320x1 .f32) (x4 : FVec Ideal S1 .f32) (x5 : FVec Ideal S192x128 .f32) (x6 x7 x8 : FVec Ideal S128 .f32)
    (h : fn (F := Ideal) x0 x1 x2 x3 x4 x5 x6 x7 x8 = fun _ => 1#1) (i : S2x800000.Idx) :
    0 ≤ (x1 i).toInt ∧ (x1 i).toInt < 50000 := by
  -- the scalar shape has one index
  haveI : Subsingleton S_.Idx := ⟨fun a b => funext fun d => d.elim0⟩
  -- the predicate at its one index; its last conjunct is the test of the edge indices
  have h0 := congrFun h (fun a => a.elim0)
  dsimp only [fn, fn_part1, fn_part2] at h0
  have h1 := (IntOp.andi_eq_one.1 h0).2
  have h2 := Host.reduce_andi_all _ _ _ _ _ h1 i
  obtain ⟨hge, hlt⟩ := IntOp.andi_eq_one.1 h2
  have hge' := IntOp.cmpi_sge.1 hge
  have hlt' := IntOp.cmpi_slt.1 hlt
  -- a broadcast scalar constant reads the constant at every index
  change (0#32 : BitVec 32).toInt ≤ (x1 i).toInt at hge'
  change (x1 i).toInt < (50000#32 : BitVec 32).toInt at hlt'
  have z : (0#32 : BitVec 32).toInt = 0 := by decide
  have k : (50000#32 : BitVec 32).toInt = 50000 := by decide
  rw [z] at hge'
  rw [k] at hlt'
  exact ⟨hge', hlt'⟩

end Cert.Pre_finite_inputs.Decode

end
-- ==== Proof.lean ====
/-
  An attentive message-passing layer: for every edge a gated message from its source row, destination row and edge
  features; the messages summed into their destination node's row; every node row then normalised, scaled, shifted
  and rectified.  The kernel program gathers the node rows on the host (each `take` fills a row whose index fails its
  bounds test with a fixed pattern), forms the messages in blocks of 10000 edges, scatter-adds on the host and
  normalises in blocks of 5000 nodes; the reference does the same on whole arrays with plain gathers.  Where every
  edge index is a node number the bounds tests pass and the two are one function of the arguments over the extended
  reals: `Cert.KernelIdeal.Value.result` (the message array `Cert.Spec.msgArr`, scatter-added, then
  `Cert.Spec.lnArr`).  Neither side's sums are rearranged, so finiteness of the float arguments is not used.
  The frames of the two kernel programs are the generated launches; the reference's frame is its generated run.
-/
import proofs.«416091_j5514738008949_1_alg».proof.Defs
import proofs.«416091_j5514738008949_1_alg».proof.Proof.Gen.Kernel
import proofs.«416091_j5514738008949_1_alg».proof.Proof.Gen.Kernel.Skeleton
import proofs.«416091_j5514738008949_1_alg».proof.Proof.Gen.Kernel.Launch
import proofs.«416091_j5514738008949_1_alg».proof.Proof.Gen.Kernel.Points
import proofs.«416091_j5514738008949_1_alg».proof.Proof.Gen.Kernel.Frame
import proofs.«416091_j5514738008949_1_alg».proof.Proof.Gen.KernelIdeal
import proofs.«416091_j5514738008949_1_alg».proof.Proof.Gen.KernelIdeal.Skeleton
import proofs.«416091_j5514738008949_1_alg».proof.Proof.Gen.KernelIdeal.Launch
import proofs.«416091_j5514738008949_1_alg».proof.Proof.Gen.KernelIdeal.Points
import proofs.«416091_j5514738008949_1_alg».proof.Proof.Gen.KernelIdeal.Frame
import proofs.«416091_j5514738008949_1_alg».proof.Proof.Gen.ReferenceIdeal
import proofs.«416091_j5514738008949_1_alg».proof.Proof.Gen.Pre_finite_inputs
import proofs.«416091_j5514738008949_1_alg».proof.Proof.Gen.ReferenceIdeal.Run
import proofs.«416091_j5514738008949_1_alg».proof.Proof.Gen.ReferenceIdeal.Read
import proofs.«416091_j5514738008949_1_alg».proof.Proof.KernelValue
import proofs.«416091_j5514738008949_1_alg».proof.Proof.RefLN
import proofs.«416091_j5514738008949_1_alg».proof.Proof.RefMsg
import proofs.«416091_j5514738008949_1_alg».proof.Proof.PreIdx
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The precondition makes every edge index a node number, on every device. -/
theorem inRange_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.KernelIdeal.HostK.InRange (m ((c.tc : Thread Cert.KernelIdeal.nD Cert.KernelIdeal.τ).loc Cert.KernelIdeal.main_arg1)) :=
  fun i => Cert.Pre_finite_inputs.Decode.idx_in_range _ _ _ _ _ _ _ _ _ (hpre c) i

/-- The reference's result term is the kernel program's result function of the same arguments: its stages from the
    aggregated array on are `lnArr`, the aggregated array is the scatter-add of its message stage, and that is
    `msgArr` of its two gathers. -/
theorem ref_result (x0 : FVec Ideal Cert.ReferenceIdeal.S50000x128 .f32) (x1 : IVec Cert.ReferenceIdeal.S2x800000 32)
    (x2 : FVec Ideal Cert.ReferenceIdeal.S800000x64 .f32) (x3 : FVec Ideal Cert.ReferenceIdeal.S320x1 .f32)
    (x4 : FVec Ideal Cert.ReferenceIdeal.S1 .f32) (x5 : FVec Ideal Cert.ReferenceIdeal.S192x128 .f32)
    (x6 x7 x8 : FVec Ideal Cert.ReferenceIdeal.S128 .f32) :
    Cert.ReferenceIdeal.Read.val_main_v64 (F := Ideal) x0 x1 x2 x3 x4 x5 x6 x7 x8
      = Cert.KernelIdeal.Value.result x0 x1 x2 x3 x4 x5 x6 x7 x8 := by
  rw [Cert.ReferenceIdeal.RefValue.ref_ln]
  unfold Cert.KernelIdeal.Value.result Cert.ReferenceIdeal.Read.val_main_v39
  rw [Cert.ReferenceIdeal.RefValue.ref_msg]

theorem algebraic : Cert.algebraic_KernelIdeal_ReferenceIdeal := by
  intro m ρ m' ρ' hpre hagree
  refine ⟨_, Cert.KernelIdeal.Value.run m ρ (inRange_of_pre m hpre), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v64_eq, ref_result, (hagree c).1, (hagree c).2.1, (hagree c).2.2.1, (hagree c).2.2.2.1,
    (hagree c).2.2.2.2.1, (hagree c).2.2.2.2.2.1, (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
